-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x1600000 : Shape := ⟨2, ![2, 1600000]⟩
abbrev S100000 : Shape := ⟨1, ![100000]⟩
abbrev S3x64 : Shape := ⟨2, ![3, 64]⟩
abbrev S64 : Shape := ⟨1, ![64]⟩
abbrev S64x64 : Shape := ⟨2, ![64, 64]⟩
abbrev S64x5 : Shape := ⟨2, ![64, 5]⟩
abbrev S5 : Shape := ⟨1, ![5]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x5 : S_.BroadcastsInDim S64x5 (![] : Fin 0 → Fin S64x5.rank)
  reducesTo_S64x5_S_d0_1 : S64x5.ReducesTo [0, 1] S_
  bcast_S_S5 : S_.BroadcastsInDim S5 (![] : Fin 0 → Fin S5.rank)
  reducesTo_S5_S_d0 : S5.ReducesTo [0] S_

variable [Facts]

def fn_part1 {F : FTy → Type} [FloatOps F] (main_arg6 : FVec F S64 .f32) (main_arg7 : FVec F S64x5 .f32) (main_arg8 : FVec F S5 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x5 .f32 := Host.absf main_arg7
  let main_cst_8 : FVec F S_ .f32 := constant S_ .f32 0x7F800000#32
  let main_v25 : FVec F S64x5 .f32 := broadcastInDim S64x5 ![] bcast_S_S64x5 main_cst_8
  let main_v26 : IVec S64x5 1 := cmpf .olt main_v24 main_v25
  let main_c_9 : IVec S_ 1 := constantI S_ 1 1#1
  let main_v27 : IVec S_ 1 := (fun x v => Host.reduce IntOp.andi x v reducesTo_S64x5_S_d0_1 h_S_) main_v26 main_c_9
  let main_v28 : IVec S_ 1 := andi main_v23 main_v27
  let main_v29 : FVec F S5 .f32 := Host.absf main_arg8
  let main_cst_10 : FVec F S_ .f32 := constant S_ .f32 0x7F800000#32
  let main_v30 : FVec F S5 .f32 := broadcastInDim S5 ![] bcast_S_S5 main_cst_10
  let main_v31 : IVec S5 1 := cmpf .olt main_v29 main_v30
  let main_c_11 : IVec S_ 1 := constantI S_ 1 1#1
  let main_v32 : IVec S_ 1 := (fun x v => Host.reduce IntOp.andi x v reducesTo_S5_S_d0 h_S_) main_v31 main_c_11
  let main_v33 : IVec S_ 1 := andi main_v28 main_v32
  main_v33

def fn {F : FTy → Type} [FloatOps F] (main_arg0 : FVec F S100000x3 .f32) (main_arg1 : IVec S2x1600000 32) (main_arg2 : IVec S100000 32) (main_arg3 : FVec F S3x64 .f32) (main_arg4 : FVec F S64 .f32) (main_arg5 : FVec F S64x64 .f32) (main_arg6 : FVec F S64 .f32) (main_arg7 : FVec F S64x5 .f32) (main_arg8 : FVec F S5 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x64 .f32 := Host.absf main_arg3
  let main_cst_0 : FVec F S_ .f32 := constant S_ .f32 0x7F800000#32
  let main_v5 : FVec F S3x64 .f32 := broadcastInDim S3x64 ![] bcast_S_S3x64 main_cst_0
  let main_v6 : IVec S3x64 1 := cmpf .olt main_v4 main_v5
  let main_c_1 : IVec S_ 1 := constantI S_ 1 1#1
  let main_v7 : IVec S_ 1 := (fun x v => Host.reduce IntOp.andi x v reducesTo_S3x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x3 : Shape := ⟨2, ![100000, 3]⟩
abbrev S2x1600000 : Shape := ⟨2, ![2, 1600000]⟩
abbrev S100000 : Shape := ⟨1, ![100000]⟩
abbrev S3x64 : Shape := ⟨2, ![3, 64]⟩
abbrev S64 : Shape := ⟨1, ![64]⟩
abbrev S64x64 : Shape := ⟨2, ![64, 64]⟩
abbrev S64x5 : Shape := ⟨2, ![64, 5]⟩
abbrev S5 : Shape := ⟨1, ![5]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x3 : Shape := ⟨2, ![5000, 3]⟩
abbrev S5000x64 : Shape := ⟨2, ![5000, 64]⟩
abbrev S1700000x64 : Shape := ⟨2, ![1700000, 64]⟩
abbrev S1x64 : Shape := ⟨2, ![1, 64]⟩
abbrev S100000x1 : Shape := ⟨2, ![100000, 1]⟩
abbrev S64x1 : Shape := ⟨2, ![64, 1]⟩
abbrev S1x5 : Shape := ⟨2, ![1, 5]⟩

abbrev nBuf : Space → Nat
  | .hbm => 100
  | .vmem => 20
  | .smem => 0
  | _ => 0

abbrev bufTy : (tb : Table) → Fin (tcTables nBuf tb) → BufTy
  | .hbm, ⟨0, _⟩ => ⟨S100000x3, .f32⟩
  | .hbm, ⟨1, _⟩ => ⟨S2x1600000, .i32⟩
  | .hbm, ⟨2, _⟩ => ⟨S100000, .i32⟩
  | .hbm, ⟨3, _⟩ => ⟨S3x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x5, .f32⟩
  | .hbm, ⟨8, _⟩ => ⟨S5, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1700000, .i32⟩
  | .hbm, ⟨25, _⟩ => ⟨S1700000, .i1⟩
  | .hbm, ⟨26, _⟩ => ⟨S_, .i32⟩
  | .hbm, ⟨27, _⟩ => ⟨S1700000, .i32⟩
  | .hbm, ⟨28, _⟩ => ⟨S1700000, .i32⟩
  | .hbm, ⟨29, _⟩ => ⟨S1700000, .i32⟩
  | .hbm, ⟨30, _⟩ => ⟨S1700000x1, .i32⟩
  | .hbm, ⟨31, _⟩ => ⟨S1700000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S100000x64, .f32⟩
  | .hbm, ⟨43, _⟩ => ⟨S1700000x1, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000x64, .f32⟩
  | .hbm, ⟨53, _⟩ => ⟨S1700000x64, .f32⟩
  | .hbm, ⟨54, _⟩ => ⟨S1700000x64, .f32⟩
  | .hbm, ⟨55, _⟩ => ⟨S_, .f32⟩
  | .hbm, ⟨56, _⟩ => ⟨S100000x64, .f32⟩
  | .hbm, ⟨57, _⟩ => ⟨S1700000x1, .i32⟩
  | .hbm, ⟨58, _⟩ => ⟨S100000x64, .f32⟩
  | .hbm, ⟨59, _⟩ => ⟨S1x64, .f32⟩
  | .hbm, ⟨60, _⟩ => ⟨S100000x64, .f32⟩
  | .hbm, ⟨61, _⟩ => ⟨S100000x64, .f32⟩
  | .hbm, ⟨62, _⟩ => ⟨S1700000x1, .f32⟩
  | .hbm, ⟨63, _⟩ => ⟨S_, .i32⟩
  | .hbm, ⟨64, _⟩ => ⟨S1700000, .i32⟩
  | .hbm, ⟨65, _⟩ => ⟨S1700000, .i1⟩
  | .hbm, ⟨66, _⟩ => ⟨S_, .i32⟩
  | .hbm, ⟨67, _⟩ => ⟨S1700000, .i32⟩
  | .hbm, ⟨68, _⟩ => ⟨S1700000, .i32⟩
  | .hbm, ⟨69, _⟩ => ⟨S1700000, .i32⟩
  | .hbm, ⟨70, _⟩ => ⟨S1700000x1, .i32⟩
  | .hbm, ⟨71, _⟩ => ⟨S1700000x64, .f32⟩
  | .hbm, ⟨72, _⟩ => ⟨S1700000x64, .f32⟩
  | .hbm, ⟨73, _⟩ => ⟨S1700000x64, .f32⟩
  | .hbm, ⟨74, _⟩ => ⟨S_, .f32⟩
  | .hbm, ⟨75, _⟩ => ⟨S100000x64, .f32⟩
  | .hbm, ⟨76, _⟩ => ⟨S1700000x1, .i32⟩
  | .hbm, ⟨77, _⟩ => ⟨S100000x64, .f32⟩
  | .hbm, ⟨78, _⟩ => ⟨S1x64, .f32⟩
  | .hbm, ⟨79, _⟩ => ⟨S100000x64, .f32⟩
  | .hbm, ⟨80, _⟩ => ⟨S_, .f32⟩
  | .hbm, ⟨81, _⟩ => ⟨S64x64, .f32⟩
  | .hbm, ⟨82, _⟩ => ⟨S100000x1, .i32⟩
  | .hbm, ⟨83, _⟩ => ⟨S64x64, .f32⟩
  | .hbm, ⟨84, _⟩ => ⟨S_, .f32⟩
  | .hbm, ⟨85, _⟩ => ⟨S100000, .f32⟩
  | .hbm, ⟨86, _⟩ => ⟨S_, .f32⟩
  | .hbm, ⟨87, _⟩ => ⟨S64, .f32⟩
  | .hbm, ⟨88, _⟩ => ⟨S100000x1, .i32⟩
  | .hbm, ⟨89, _⟩ => ⟨S64, .f32⟩
  | .hbm, ⟨90, _⟩ => ⟨S_, .f32⟩
  | .hbm, ⟨91, _⟩ => ⟨S64, .f32⟩
  | .hbm, ⟨92, _⟩ => ⟨S64, .f32⟩
  | .hbm, ⟨93, _⟩ => ⟨S64x1, .f32⟩
  | .hbm, ⟨94, _⟩ => ⟨S64x64, .f32⟩
  | .hbm, ⟨95, _⟩ => ⟨S64x64, .f32⟩
  | .hbm, ⟨96, _⟩ => ⟨S64x5, .f32⟩
  | .hbm, ⟨97, _⟩ => ⟨S1x5, .f32⟩
  | .hbm, ⟨98, _⟩ => ⟨S64x5, .f32⟩
  | .hbm, ⟨99, _⟩ => ⟨S64x5, .f32⟩
  | .local _ .vmem, ⟨0, _⟩ => ⟨S5000x3, .f32⟩
  | .local _ .vmem, ⟨1, _⟩ => ⟨S5000x3, .f32⟩
  | .local _ .vmem, ⟨2, _⟩ => ⟨S3x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_4 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_7 : Ref sig .tc := ⟨.hbm, 63, rfl⟩
abbrev main_v45 : Ref sig .tc := ⟨.hbm, 64, rfl⟩
abbrev main_v46 : Ref sig .tc := ⟨.hbm, 65, rfl⟩
abbrev main_c_8 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_9 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_10 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_11 : Ref sig .tc := ⟨.hbm, 84, rfl⟩
abbrev main_v62 : Ref sig .tc := ⟨.hbm, 85, rfl⟩
abbrev main_cst_12 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_13 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x3_S5000x3_0_0 : ∀ a, (![0, 0] : Fin 2 → Nat) a + S5000x3.size a ≤ S5000x3.size a
  h_S5000x3 : 0 < S5000x3.numel
  bitsLt_bf16_f32 : FTy.bits .bf16 < FTy.bits .f32
  inb_S3x64_S3x64_0_0 : ∀ a, (![0, 0] : Fin 2 → Nat) a + S3x64.size a ≤ S3x64.size a
  h_S3x64 : 0 < S3x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  bcast_S_S64x64 : S_.BroadcastsInDim S64x64 (![] : Fin 0 → Fin S64x64.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S5_S1x5_1 : S5.BroadcastsInDim S1x5 (![1] : Fin 1 → Fin S1x5.rank)
  bcast_S1x5_S64x5_0_1 : S1x5.BroadcastsInDim S64x5 (![0, 1] : Fin 2 → Fin S64x5.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x3_S3x64_S5000x64_1_0_0_1_n_n_wf : DotDims.WF S5000x3 S3x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x5_S64x5_1_0_0_1_n_n_wf : DotDims.WF S64x64 S64x5 S64x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x3.size a ≤ S100000x3.size a
  hwx0_0 : ∀ i : grid0.Coords, EltTy.bits .f32 = 32 ∨ (Rect.block (s := S100000x3) S5000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x64.size a ≤ S3x64.size a
  hwx0_1 : ∀ i : grid0.Coords, EltTy.bits .f32 = 32 ∨ (Rect.block (s := S3x64) S3x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x3_S3x64_S5000x64_1_0_0_1_n_n : DotDims S5000x3 S3x64 S5000x64 where
  lhsContracting := [1]
  rhsContracting := [0]
  lhsNonContracting := [0]
  rhsNonContracting := [1]
  lhsBatch := []
  rhsBatch := []
  wf := dot_S5000x3_S3x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x5_S64x5_1_0_0_1_n_n : DotDims S64x64 S64x5 S64x5 where
  lhsContracting := [1]
  rhsContracting := [0]
  lhsNonContracting := [0]
  rhsNonContracting := [1]
  lhsBatch := []
  rhsBatch := []
  wf := dot_S64x64_S64x5_S64x5_1_0_0_1_n_n_wf

abbrev win0_0 : Pipeline.Window sig grid0 :=
  Pipeline.Window.ofSpec (Memref.whole main_arg0) S5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S3x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x3 : Shape := ⟨2, ![100000, 3]⟩
abbrev S2x1600000 : Shape := ⟨2, ![2, 1600000]⟩
abbrev S100000 : Shape := ⟨1, ![100000]⟩
abbrev S3x64 : Shape := ⟨2, ![3, 64]⟩
abbrev S64 : Shape := ⟨1, ![64]⟩
abbrev S64x64 : Shape := ⟨2, ![64, 64]⟩
abbrev S64x5 : Shape := ⟨2, ![64, 5]⟩
abbrev S5 : Shape := ⟨1, ![5]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩
abbrev S64x1 : Shape := ⟨2, ![64, 1]⟩
abbrev S1x5 : Shape := ⟨2, ![1, 5]⟩

abbrev nBuf : Space → Nat
  | .hbm => 108
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S2x1600000, .i32⟩
  | .hbm, ⟨2, _⟩ => ⟨S100000, .i32⟩
  | .hbm, ⟨3, _⟩ => ⟨S3x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x5, .f32⟩
  | .hbm, ⟨8, _⟩ => ⟨S5, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1700000, .i32⟩
  | .hbm, ⟨25, _⟩ => ⟨S1700000, .i1⟩
  | .hbm, ⟨26, _⟩ => ⟨S_, .i32⟩
  | .hbm, ⟨27, _⟩ => ⟨S1700000, .i32⟩
  | .hbm, ⟨28, _⟩ => ⟨S1700000, .i32⟩
  | .hbm, ⟨29, _⟩ => ⟨S1700000, .i32⟩
  | .hbm, ⟨30, _⟩ => ⟨S1700000x1, .i32⟩
  | .hbm, ⟨31, _⟩ => ⟨S1700000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S100000x64, .f32⟩
  | .hbm, ⟨43, _⟩ => ⟨S1700000x1, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000x64, .f32⟩
  | .hbm, ⟨53, _⟩ => ⟨S1700000x64, .f32⟩
  | .hbm, ⟨54, _⟩ => ⟨S1700000x64, .f32⟩
  | .hbm, ⟨55, _⟩ => ⟨S_, .f32⟩
  | .hbm, ⟨56, _⟩ => ⟨S100000x64, .f32⟩
  | .hbm, ⟨57, _⟩ => ⟨S1700000x1, .i32⟩
  | .hbm, ⟨58, _⟩ => ⟨S100000x64, .f32⟩
  | .hbm, ⟨59, _⟩ => ⟨S1x64, .f32⟩
  | .hbm, ⟨60, _⟩ => ⟨S100000x64, .f32⟩
  | .hbm, ⟨61, _⟩ => ⟨S100000x64, .f32⟩
  | .hbm, ⟨62, _⟩ => ⟨S_, .f32⟩
  | .hbm, ⟨63, _⟩ => ⟨S100000x64, .f32⟩
  | .hbm, ⟨64, _⟩ => ⟨S100000x64, .f32⟩
  | .hbm, ⟨65, _⟩ => ⟨S100000x64, .f32⟩
  | .hbm, ⟨66, _⟩ => ⟨S1700000x1, .f32⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x64, .f32⟩
  | .hbm, ⟨76, _⟩ => ⟨S1700000x64, .f32⟩
  | .hbm, ⟨77, _⟩ => ⟨S1700000x64, .f32⟩
  | .hbm, ⟨78, _⟩ => ⟨S_, .f32⟩
  | .hbm, ⟨79, _⟩ => ⟨S100000x64, .f32⟩
  | .hbm, ⟨80, _⟩ => ⟨S1700000x1, .i32⟩
  | .hbm, ⟨81, _⟩ => ⟨S100000x64, .f32⟩
  | .hbm, ⟨82, _⟩ => ⟨S1x64, .f32⟩
  | .hbm, ⟨83, _⟩ => ⟨S100000x64, .f32⟩
  | .hbm, ⟨84, _⟩ => ⟨S100000x64, .f32⟩
  | .hbm, ⟨85, _⟩ => ⟨S_, .f32⟩
  | .hbm, ⟨86, _⟩ => ⟨S100000x64, .f32⟩
  | .hbm, ⟨87, _⟩ => ⟨S100000x64, .f32⟩
  | .hbm, ⟨88, _⟩ => ⟨S_, .f32⟩
  | .hbm, ⟨89, _⟩ => ⟨S64x64, .f32⟩
  | .hbm, ⟨90, _⟩ => ⟨S100000x1, .i32⟩
  | .hbm, ⟨91, _⟩ => ⟨S64x64, .f32⟩
  | .hbm, ⟨92, _⟩ => ⟨S_, .f32⟩
  | .hbm, ⟨93, _⟩ => ⟨S100000, .f32⟩
  | .hbm, ⟨94, _⟩ => ⟨S_, .f32⟩
  | .hbm, ⟨95, _⟩ => ⟨S64, .f32⟩
  | .hbm, ⟨96, _⟩ => ⟨S100000x1, .i32⟩
  | .hbm, ⟨97, _⟩ => ⟨S64, .f32⟩
  | .hbm, ⟨98, _⟩ => ⟨S_, .f32⟩
  | .hbm, ⟨99, _⟩ => ⟨S64, .f32⟩
  | .hbm, ⟨100, _⟩ => ⟨S64, .f32⟩
  | .hbm, ⟨101, _⟩ => ⟨S64x1, .f32⟩
  | .hbm, ⟨102, _⟩ => ⟨S64x64, .f32⟩
  | .hbm, ⟨103, _⟩ => ⟨S64x64, .f32⟩
  | .hbm, ⟨104, _⟩ => ⟨S64x5, .f32⟩
  | .hbm, ⟨105, _⟩ => ⟨S1x5, .f32⟩
  | .hbm, ⟨106, _⟩ => ⟨S64x5, .f32⟩
  | .hbm, ⟨107, _⟩ => ⟨S64x5, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_4 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_call0_cst : Ref sig .tc := ⟨.hbm, 62, rfl⟩
abbrev main_call0_v0 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_7 : Ref sig .tc := ⟨.hbm, 67, rfl⟩
abbrev main_v47 : Ref sig .tc := ⟨.hbm, 68, rfl⟩
abbrev main_v48 : Ref sig .tc := ⟨.hbm, 69, rfl⟩
abbrev main_c_8 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_9 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_call1_cst : Ref sig .tc := ⟨.hbm, 85, rfl⟩
abbrev main_call1_v0 : Ref sig .tc := ⟨.hbm, 86, rfl⟩
abbrev main_v62 : Ref sig .tc := ⟨.hbm, 87, rfl⟩
abbrev main_cst_10 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_11 : Ref sig .tc := ⟨.hbm, 92, rfl⟩
abbrev main_v66 : Ref sig .tc := ⟨.hbm, 93, rfl⟩
abbrev main_cst_12 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_13 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S5_S1x5_1 : S5.BroadcastsInDim S1x5 (![1] : Fin 1 → Fin S1x5.rank)
  bcast_S1x5_S64x5_0_1 : S1x5.BroadcastsInDim S64x5 (![0, 1] : Fin 2 → Fin S64x5.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x3_S3x64_S100000x64_1_0_0_1_n_n_wf : DotDims.WF S100000x3 S3x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x5_S64x5_1_0_0_1_n_n_wf : DotDims.WF S64x64 S64x5 S64x5 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x3_S3x64_S100000x64_1_0_0_1_n_n : DotDims S100000x3 S3x64 S100000x64 where
  lhsContracting := [1]
  rhsContracting := [0]
  lhsNonContracting := [0]
  rhsNonContracting := [1]
  lhsBatch := []
  rhsBatch := []
  wf := dot_S100000x3_S3x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x5_S64x5_1_0_0_1_n_n : DotDims S64x64 S64x5 S64x5 where
  lhsContracting := [1]
  rhsContracting := [0]
  lhsNonContracting := [0]
  rhsNonContracting := [1]
  lhsBatch := []
  rhsBatch := []
  wf := dot_S64x64_S64x5_S64x5_1_0_0_1_n_n_wf

class Facts : Prop extends Facts₀ where

variable [Facts]
-- ==== Proof.Spec.lean ====
/-
  The two dense passes of a graph-convolution layer, as functions of whole arrays read index by index over the
  extended reals: the projection `x · W` (row `r`, column `q`: the sum over `k` of `x[r,k] · W[k,q]`) and the
  rectified bias `max (a + b, 0)` with the bias a single row broadcast down the rows.
-/
import Idealize.ShloMosaic.PureOps.Ideal
import Idealize.ShloMosaic.Lib.ValueIdx

noncomputable section

open scoped BigOperators

namespace Cert.Gcn

open Idealize.ShloMosaic Idealize.ShloMosaic.ValueIdx

/-- `x · W` at an index: row `i 0` of `x` against column `i 1` of `W`. -/
def proj (N K M : Nat) (x : (⟨2, ![N, K]⟩ : Shape).Idx → EReal) (w : (⟨2, ![K, M]⟩ : Shape).Idx → EReal) :
    (⟨2, ![N, M]⟩ : Shape).Idx → EReal :=
  fun i => ∑ k : Fin K, x (ix2 (i 0) k) * w (ix2 k (i 1))

/-- `max (a + b, 0)` at an index, the bias `b` one row read at the column. -/
def biasRelu (N M : Nat) (a : (⟨2, ![N, M]⟩ : Shape).Idx → EReal) (b : (⟨2, ![1, M]⟩ : Shape).Idx → EReal) :
    (⟨2, ![N, M]⟩ : Shape).Idx → EReal :=
  fun i => max (a i + b (ix2 (0 : Fin 1) (i 1))) 0

end Cert.Gcn

end
-- ==== Proof.Proj0.lean ====
/-
  Region 0: the first layer's projection. Every grid point writes back rows `5000 t … 5000 t + 4999` of `x · W1`,
  and the twenty blocks tile the array.
-/
import proofs.«430725_j9938554323662_3_alg».proof.Proof.Gen.KernelIdeal.Frame
import proofs.«430725_j9938554323662_3_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-! ## The product's operand indices, axis by axis

At the result index `i` and the contraction index `q` the left operand is read at `(i 0, q)` and the right one at
`(q, i 1)`. -/

theorem lhs_k0_0 (i : S5000x64.Idx) (q : dot_S5000x3_S3x64_S5000x64_1_0_0_1_n_n.contr.Idx) :
    (dot_S5000x3_S3x64_S5000x64_1_0_0_1_n_n.lhsIdx i q 0).val = (i 0).val := by
  unfold DotDims.lhsIdx
  rw [dif_neg (show ¬(0 : Fin S5000x3.rank) ∈ dot_S5000x3_S3x64_S5000x64_1_0_0_1_n_n.lhsBatch by decide), dif_pos (show (0 : Fin S5000x3.rank) ∈ dot_S5000x3_S3x64_S5000x64_1_0_0_1_n_n.lhsNonContracting by decide)]
  rfl
theorem lhs_k0_1 (i : S5000x64.Idx) (q : dot_S5000x3_S3x64_S5000x64_1_0_0_1_n_n.contr.Idx) :
    (dot_S5000x3_S3x64_S5000x64_1_0_0_1_n_n.lhsIdx i q 1).val = (q ⟨0, by decide⟩).val :=
  dot_S5000x3_S3x64_S5000x64_1_0_0_1_n_n.lhsIdx_val_of_single rfl i q
theorem rhs_k0_0 (i : S5000x64.Idx) (q : dot_S5000x3_S3x64_S5000x64_1_0_0_1_n_n.contr.Idx) :
    (dot_S5000x3_S3x64_S5000x64_1_0_0_1_n_n.rhsIdx i q 0).val = (q ⟨0, by decide⟩).val :=
  dot_S5000x3_S3x64_S5000x64_1_0_0_1_n_n.rhsIdx_val_of_single rfl i q
theorem rhs_k0_1 (i : S5000x64.Idx) (q : dot_S5000x3_S3x64_S5000x64_1_0_0_1_n_n.contr.Idx) :
    (dot_S5000x3_S3x64_S5000x64_1_0_0_1_n_n.rhsIdx i q 1).val = (i 1).val := by
  unfold DotDims.rhsIdx
  rw [dif_neg (show ¬(1 : Fin S3x64.rank) ∈ dot_S5000x3_S3x64_S5000x64_1_0_0_1_n_n.rhsBatch by decide), dif_pos (show (1 : Fin S3x64.rank) ∈ dot_S5000x3_S3x64_S5000x64_1_0_0_1_n_n.rhsNonContracting by decide)]
  rfl

/-! ## The body's value at an index -/

/-- What the body stores, at row `p` and column `q` of its block: row `p` of the first block against column `q` of
    the second (the narrowing to bf16 is the identity on extended reals, and the accumulator starts at zero). -/
theorem k0_pay1_apply (v0 : Vec Ideal S5000x3 .f32) (v2 : Vec Ideal S3x64 .f32) (p : Fin 5000) (q : Fin 64) :
    k0_pay1 v0 v2 (ix2 p q) = ∑ k : Fin 3, v0 (ix2 p k) * v2 (ix2 k q) := by
  unfold k0_pay1
  simp only [matmul, shapeCast_self]
  rw [Ideal.matmul_constant_zero_apply, ← Equiv.sum_comp (ValueIdx.contrEquiv1 dot_S5000x3_S3x64_S5000x64_1_0_0_1_n_n 3 rfl rfl).symm]
  refine Finset.sum_congr rfl fun k _ => ?_
  have hk := ValueIdx.contrEquiv1_symm_val dot_S5000x3_S3x64_S5000x64_1_0_0_1_n_n 3 rfl rfl k
  have el : dot_S5000x3_S3x64_S5000x64_1_0_0_1_n_n.lhsIdx (ix2 p q) ((ValueIdx.contrEquiv1 dot_S5000x3_S3x64_S5000x64_1_0_0_1_n_n 3 rfl rfl).symm k) = ix2 p k := funext fun a => Fin.ext (by
    match a with
    | ⟨0, _⟩ => exact lhs_k0_0 _ _
    | ⟨1, _⟩ => exact (lhs_k0_1 _ _).trans hk)
  have er : dot_S5000x3_S3x64_S5000x64_1_0_0_1_n_n.rhsIdx (ix2 p q) ((ValueIdx.contrEquiv1 dot_S5000x3_S3x64_S5000x64_1_0_0_1_n_n 3 rfl rfl).symm k) = ix2 k q := funext fun a => Fin.ext (by
    match a with
    | ⟨0, _⟩ => exact (rhs_k0_0 _ _).trans hk
    | ⟨1, _⟩ => exact rhs_k0_1 _ _)
  rw [el, er, truncf_apply, truncf_apply]

/-! ## The windows' blocks -/

theorem hz : (![0, 0] : Fin 2 → Nat) = fun _ => 0 := funext fun a => by fin_cases a <;> rfl

/-- The printed index maps, decided over the grid: the first input and the result move down the rows with the point,
    the second input stays at its one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The first input's block at point `t` is rows `5000 t … 5000 t + 4999` of its array. -/
theorem iblk0_0_apply (c : Dev nD) (t : Fin cfg0.N) (p : Fin 5000) (k : Fin 3) (i : S100000x3.Idx)
    (hi0 : (i 0).val = t.val * 5000 + p.val) (hi1 : (i 1).val = k.val) :
    (iblk0 V c 0 t : Vec Ideal S5000x3 .f32) (ix2 p k) = (V c main_arg0 : S100000x3.Idx → EReal) i := by
  obtain ⟨e0, e1, -⟩ := idx_facts0 t
  unfold iblk0
  rw [View.read_apply]
  show V c main_arg0 (((cfg0.win 0).blk t).view.emb (ix2 p k)) = V c main_arg0 i
  congr 1
  funext a
  apply Fin.ext
  match a with
  | ⟨0, _⟩ => show win0_0.index t (0 : Fin 2) * 5000 + 1 * p.val = (i 0).val; rw [e0, hi0]; omega
  | ⟨1, _⟩ => show win0_0.index t (1 : Fin 2) * 3 + 1 * k.val = (i 1).val; rw [e1, hi1]; omega

/-- The second input's block at every point is its whole array. -/
theorem iblk0_1_apply (c : Dev nD) (t : Fin cfg0.N) (k : Fin 3) (q : Fin 64) (i : S3x64.Idx)
    (hi0 : (i 0).val = k.val) (hi1 : (i 1).val = q.val) :
    (iblk0 V c 1 t : Vec Ideal S3x64 .f32) (ix2 k q) = (V c main_arg3 : S3x64.Idx → EReal) i := by
  obtain ⟨-, -, e0, e1, -⟩ := idx_facts0 t
  unfold iblk0
  rw [View.read_apply]
  show V c main_arg3 (((cfg0.win 1).blk t).view.emb (ix2 k q)) = V c main_arg3 i
  congr 1
  funext a
  apply Fin.ext
  match a with
  | ⟨0, _⟩ => show win0_1.index t (0 : Fin 2) * 3 + 1 * k.val = (i 0).val; rw [e0, hi0]; omega
  | ⟨1, _⟩ => show win0_1.index t (1 : Fin 2) * 64 + 1 * q.val = (i 1).val; rw [e1, hi1]; omega

/-! ## What a point writes back -/

/-- `x · W` read at an index: the row of `x` against the column of `W`. -/
theorem proj_apply (x : S100000x3.Idx → EReal) (w : S3x64.Idx → EReal) (i : S100000x64.Idx) :
    Cert.Gcn.proj 100000 3 64 x w i = ∑ k : Fin 3, x (ix2 (i 0) k) * w (ix2 k (i 1)) := rfl

/-- The body's value at point `t`, row `p`, column `q` is `x · W1` at row `5000 t + p`, column `q`. -/
theorem point0 (c : Dev nD) (t : Fin cfg0.N) (p : Fin 5000) (q : Fin 64) (i : S100000x64.Idx)
    (hi0 : (i 0).val = t.val * 5000 + p.val) (hi1 : (i 1).val = q.val) :
    k0_pay1 (iblk0 V c 0 t) (iblk0 V c 1 t) (ix2 p q) = Cert.Gcn.proj 100000 3 64 (V c main_arg0) (V c main_arg3) i := by
  refine ((k0_pay1_apply _ _ p q).trans ?_).trans (proj_apply _ _ i).symm
  refine Finset.sum_congr rfl fun k _ => ?_
  rw [iblk0_0_apply V c t p k (ix2 (i 0) k) hi0 rfl, iblk0_1_apply V c t k q (ix2 k (i 1)) rfl hi1]

/-- WHAT POINT `t` WRITES BACK is block `t` of `x · W1` of the two arrays the region found. -/
theorem flushed0_eq (c : Dev nD) (t : Fin cfg0.N) :
    (dat0 (F := Ideal) V c).flushed 2 t = ((cfg0.win 2).blk t).view.read (Elt Ideal) (Cert.Gcn.proj 100000 3 64 (V c main_arg0) (V c main_arg3)) := by
  show (cfg0.win 2).cut (grid0.coords t) ((dat0 V c).after 2 t) = _
  rw [after0_2]
  unfold out0_2
  rw [View.canon_unit_zero hz]
  simp only [View.ld_unit_zero (S := S5000x3) hz, View.ld_unit_zero (S := S3x64) hz]
  obtain ⟨-, -, -, -, e0, e1⟩ := idx_facts0 t
  funext j
  obtain ⟨p, q, rfl⟩ : ∃ (p : Fin 5000) (q : Fin 64), j = ix2 p q := ⟨j 0, j 1, eq_ix2 j⟩
  show k0_pay1 (iblk0 V c 0 t) (iblk0 V c 1 t) (ix2 p q) = Cert.Gcn.proj 100000 3 64 (V c main_arg0) (V c main_arg3) (((cfg0.win 2).blk t).view.emb (ix2 p q))
  refine point0 V c t p q _ ?_ ?_
  · show win0_2.index t (0 : Fin 2) * 5000 + 1 * p.val = _; rw [e0]; omega
  · show win0_2.index t (1 : Fin 2) * 64 + 1 * q.val = _; rw [e1]; omega

/-! ## From blocks to the array -/

/-- An index of the array is in point `t`'s block iff each coordinate is in the block's range on its axis. -/
theorem mem_blk0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v27).slice (win0_2.rect t)).set ↔ _
  rw [View.set_slice_whole, Rect.mem_set_unit]
  exact Iff.rfl

/-- Row `r` lies in the block of point `r / 5000`: the twenty blocks cover the array. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, e0, e1⟩ := idx_facts0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; rw [e0, ht]; omega
  | ⟨1, _⟩ => show win0_2.index t (1 : Fin 2) * 64 ≤ (i 1).val ∧ (i 1).val < win0_2.index t (1 : Fin 2) * 64 + 64; rw [e1]; omega

/-- After region 0 its result array holds `x · W1` of the two arrays the region found. -/
theorem arr0 (c : Dev nD) :
    (dat0 (F := Ideal) V c).arrAt 2 cfg0.N = Cert.Gcn.proj 100000 3 64 (V c main_arg0) (V c main_arg3) :=
  (dat0 V c).arrAt_eq_of_cover 2 _ (fun t _ => flushed0_eq V c t) cover0

end Cert.KernelIdeal.Hand

end
-- ==== Proof.Relu1.lean ====
/-
  Region 1: the first layer's bias and rectifier. Every grid point writes back rows `5000 t … 5000 t + 4999` of
  `max (agg + b1, 0)`, and the twenty blocks tile the array.
-/
import proofs.«430725_j9938554323662_3_alg».proof.Proof.Gen.KernelIdeal.Frame
import proofs.«430725_j9938554323662_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- The zero offset of a whole-buffer access, as a constant function. -/
theorem zero_off_r1 : (![0, 0] : Fin 2 → Nat) = fun _ => 0 := funext fun a => by fin_cases a <;> rfl

/-- The body's payload at an index: the block's entry plus the bias at the column, cut below at zero. -/
theorem pay_apply_r1 (v0 : Vec Ideal S5000x64 .f32) (v2 : Vec Ideal S1x64 .f32) (p : Fin 5000) (q : Fin 64) :
    k1_pay1 (F := Ideal) v0 v2 (ix2 p q) = max (v0 (ix2 p q) + v2 (ix2 (0 : Fin 1) q)) 0 := by
  unfold k1_pay1
  rw [maximumf_apply, addf_apply, broadcast_apply, shapeCast_self, shapeCast_self, broadcastTo_1b_ab_apply]
  rw [Ideal.ofBits_def, Ideal.ofBits_zero_f32]

/-- The printed index maps over the grid: windows 0 and 2 sit at block row `t`, column block 0; window 1 stays at block (0, 0). -/
theorem idx_facts_r1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Window 0's block at point `t` is rows `5000 t …` of the first array. -/
theorem iblk0_apply_r1 (c : Dev nD) (t : Fin cfg1.N) (x : S5000x64.Idx) (k : S100000x64.Idx)
    (hk0 : (k 0).val = 5000 * t.val + (x 0).val) (hk1 : (k 1).val = (x 1).val) :
    (iblk1 (F := Ideal) V c 0 t : Vec Ideal S5000x64 .f32) x = (V c main_v40 : S100000x64.Idx → EReal) k := by
  obtain ⟨e0, e1, -⟩ := idx_facts_r1 t
  unfold iblk1
  rw [View.read_apply]
  show V c main_v40 _ = V c main_v40 _
  congr 1
  funext a; apply Fin.ext
  match a with
  | ⟨0, _⟩ => show win1_0.index t (0 : Fin 2) * 5000 + 1 * (x 0).val = (k 0).val; rw [e0, hk0]; omega
  | ⟨1, _⟩ => show win1_0.index t (1 : Fin 2) * 64 + 1 * (x 1).val = (k 1).val; rw [e1, hk1]; omega

/-- Window 1's block at every point is the whole bias row. -/
theorem iblk1_apply_r1 (c : Dev nD) (t : Fin cfg1.N) (x : S1x64.Idx) :
    (iblk1 (F := Ideal) V c 1 t : Vec Ideal S1x64 .f32) x = (V c main_v41 : S1x64.Idx → EReal) x := by
  obtain ⟨-, -, e0, e1, -⟩ := idx_facts_r1 t
  unfold iblk1
  rw [View.read_apply]
  show V c main_v41 _ = V c main_v41 _
  congr 1
  funext a; apply Fin.ext
  match a with
  | ⟨0, _⟩ => show win1_1.index t (0 : Fin 2) * 1 + 1 * (x 0).val = (x 0).val; rw [e0]; omega
  | ⟨1, _⟩ => show win1_1.index t (1 : Fin 2) * 64 + 1 * (x 1).val = (x 1).val; rw [e1]; omega

/-- One point's result at one index, from what the two blocks hold there: it is the whole-array function at the
    array index `i` the block index sits at. -/
theorem point_r1 (A : S100000x64.Idx → EReal) (B : S1x64.Idx → EReal) (x0 : Vec Ideal S5000x64 .f32) (x1 : Vec Ideal S1x64 .f32)
    (p : Fin 5000) (q : Fin 64) (i : S100000x64.Idx) (h0 : x0 (ix2 p q) = A i)
    (h1 : x1 (ix2 (0 : Fin 1) q) = B (ix2 (0 : Fin 1) q)) (hi : (i 1).val = q.val) :
    k1_pay1 (F := Ideal) x0 x1 (ix2 p q) = Cert.Gcn.biasRelu 100000 64 A B i := by
  rw [pay_apply_r1, h0, h1]
  have hq : (ix2 (0 : Fin 1) q : S1x64.Idx) = ix2 (n1 := 64) (0 : Fin 1) (i 1) := congrArg (ix2 (n1 := 64) (0 : Fin 1)) (Fin.ext hi.symm)
  rw [hq]
  rfl

/-- What point `t` writes back is block `t` of the whole-array function of the two arrays the region found. -/
theorem flushed_eq_r1 (c : Dev nD) (t : Fin cfg1.N) :
    (dat1 (F := Ideal) V c).flushed 2 t
      = ((cfg1.win 2).blk t).view.read (Elt Ideal) (Cert.Gcn.biasRelu 100000 64 (V c main_v40) (V c main_v41)) := by
  show (cfg1.win 2).cut (grid1.coords t) ((dat1 (F := Ideal) V c).after 2 t) = _
  rw [after1_2]
  unfold out1_2
  rw [View.canon_unit_zero zero_off_r1]
  simp only [View.ld_unit_zero (S := S5000x64) zero_off_r1, View.ld_unit_zero (S := S1x64) zero_off_r1]
  obtain ⟨-, -, -, -, e0, e1⟩ := idx_facts_r1 t
  funext j
  obtain ⟨p, q, rfl⟩ : ∃ (p : Fin 5000) (q : Fin 64), j = ix2 p q := ⟨j 0, j 1, eq_ix2 j⟩
  show k1_pay1 (F := Ideal) (iblk1 V c 0 t) (iblk1 V c 1 t) (ix2 p q)
    = Cert.Gcn.biasRelu 100000 64 (V c main_v40) (V c main_v41) (((cfg1.win 2).blk t).view.emb (ix2 p q))
  refine point_r1 _ _ _ _ p q _ ?_ ?_ ?_
  · refine iblk0_apply_r1 V c t (ix2 p q) _ ?_ ?_
    · show win1_2.index t (0 : Fin 2) * 5000 + 1 * p.val = 5000 * t.val + p.val; rw [e0]; omega
    · show win1_2.index t (1 : Fin 2) * 64 + 1 * q.val = q.val; rw [e1]; omega
  · exact iblk1_apply_r1 V c t _
  · show win1_2.index t (1 : Fin 2) * 64 + 1 * q.val = q.val; rw [e1]; omega

/-- An index of the array is in point `t`'s block iff each coordinate is in the block's range on its axis. -/
theorem mem_blk_r1 (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v42).slice (win1_2.rect t)).set ↔ _
  rw [View.set_slice_whole, Rect.mem_set_unit]
  exact Iff.rfl

/-- Every index of the array lies in the block of the point its row falls to, `row / 5000`. -/
theorem cover_r1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := N_1
  refine ⟨⟨(i 0).val / 5000, by rw [hN]; omega⟩, flush1_2 _, ?_⟩
  obtain ⟨-, -, -, -, e0, e1⟩ := idx_facts_r1 ⟨(i 0).val / 5000, by rw [hN]; omega⟩
  rw [mem_blk_r1]
  intro a
  match a with
  | ⟨0, _⟩ =>
    show win1_2.index _ (0 : Fin 2) * 5000 ≤ (i 0).val ∧ (i 0).val < win1_2.index _ (0 : Fin 2) * 5000 + 5000
    rw [e0]; show (i 0).val / 5000 * 5000 ≤ (i 0).val ∧ (i 0).val < (i 0).val / 5000 * 5000 + 5000; omega
  | ⟨1, _⟩ =>
    show win1_2.index _ (1 : Fin 2) * 64 ≤ (i 1).val ∧ (i 1).val < win1_2.index _ (1 : Fin 2) * 64 + 64
    rw [e1]; omega

/-- After region 1 its result array holds `max (agg + b, 0)` of the two arrays the region found. -/
theorem arr1 (c : Dev nD) :
    (dat1 (F := Ideal) V c).arrAt 2 cfg1.N = Cert.Gcn.biasRelu 100000 64 (V c main_v40) (V c main_v41) :=
  (dat1 (F := Ideal) V c).arrAt_eq_of_cover 2 (Cert.Gcn.biasRelu 100000 64 (V c main_v40) (V c main_v41))
    (fun t _ => flushed_eq_r1 V c t) cover_r1

end Cert.KernelIdeal.Hand

end
-- ==== Proof.Proj2.lean ====
/-
  Region 2: the second layer's projection. Every grid point writes back rows `5000 t … 5000 t + 4999` of `h · W2`,
  `h` the first layer's rectified output, and the twenty blocks tile the array.
-/
import proofs.«430725_j9938554323662_3_alg».proof.Proof.Gen.KernelIdeal.Frame
import proofs.«430725_j9938554323662_3_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-! ## The product's operand indices, axis by axis

At the result index `i` and the contraction index `q` the left operand is read at `(i 0, q)` and the right one at
`(q, i 1)`. -/

theorem lhs_k2_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_k2_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_k2_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_k2_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-! ## The body's value at an index -/

/-- What the body stores, at row `p` and column `q` of its block: row `p` of the first block against column `q` of
    the second (the reshape to the same shape and the narrowing to bf16 are the identity on extended reals, and the
    accumulator starts at zero). -/
theorem k2_pay1_apply (v0 : Vec Ideal S5000x64 .f32) (v3 : Vec Ideal S64x64 .f32) (p : Fin 5000) (q : Fin 64) :
    k2_pay1 v0 v3 (ix2 p q) = ∑ k : Fin 64, v0 (ix2 p k) * v3 (ix2 k q) := by
  unfold k2_pay1
  simp only [matmul, shapeCast_self]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_k2_0 _ _
    | ⟨1, _⟩ => exact (lhs_k2_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_k2_0 _ _).trans hk
    | ⟨1, _⟩ => exact rhs_k2_1 _ _)
  rw [el, er, truncf_apply, truncf_apply]

/-! ## The windows' blocks -/

theorem hz_r2 : (![0, 0] : Fin 2 → Nat) = fun _ => 0 := funext fun a => by fin_cases a <;> rfl

/-- The printed index maps, decided over the grid: the first input and the result move down the rows with the point,
    the second input stays at its one block. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The first input's block at point `t` is rows `5000 t … 5000 t + 4999` of its array. -/
theorem iblk2_0_apply (c : Dev nD) (t : Fin cfg2.N) (p : Fin 5000) (k : Fin 64) (i : S100000x64.Idx)
    (hi0 : (i 0).val = t.val * 5000 + p.val) (hi1 : (i 1).val = k.val) :
    (iblk2 V c 0 t : Vec Ideal S5000x64 .f32) (ix2 p k) = (V c main_v42 : S100000x64.Idx → EReal) i := by
  obtain ⟨e0, e1, -⟩ := idx_facts2 t
  unfold iblk2
  rw [View.read_apply]
  show V c main_v42 (((cfg2.win 0).blk t).view.emb (ix2 p k)) = V c main_v42 i
  congr 1
  funext a
  apply Fin.ext
  match a with
  | ⟨0, _⟩ => show win2_0.index t (0 : Fin 2) * 5000 + 1 * p.val = (i 0).val; rw [e0, hi0]; omega
  | ⟨1, _⟩ => show win2_0.index t (1 : Fin 2) * 64 + 1 * k.val = (i 1).val; rw [e1, hi1]; omega

/-- The second input's block at every point is its whole array. -/
theorem iblk2_1_apply (c : Dev nD) (t : Fin cfg2.N) (k : Fin 64) (q : Fin 64) (i : S64x64.Idx)
    (hi0 : (i 0).val = k.val) (hi1 : (i 1).val = q.val) :
    (iblk2 V c 1 t : Vec Ideal S64x64 .f32) (ix2 k q) = (V c main_arg5 : S64x64.Idx → EReal) i := by
  obtain ⟨-, -, e0, e1, -⟩ := idx_facts2 t
  unfold iblk2
  rw [View.read_apply]
  show V c main_arg5 (((cfg2.win 1).blk t).view.emb (ix2 k q)) = V c main_arg5 i
  congr 1
  funext a
  apply Fin.ext
  match a with
  | ⟨0, _⟩ => show win2_1.index t (0 : Fin 2) * 64 + 1 * k.val = (i 0).val; rw [e0, hi0]; omega
  | ⟨1, _⟩ => show win2_1.index t (1 : Fin 2) * 64 + 1 * q.val = (i 1).val; rw [e1, hi1]; omega

/-! ## What a point writes back -/

/-- `h · W` read at an index: the row of `h` against the column of `W`. -/
theorem proj_apply_r2 (x : S100000x64.Idx → EReal) (w : S64x64.Idx → EReal) (i : S100000x64.Idx) :
    Cert.Gcn.proj 100000 64 64 x w i = ∑ k : Fin 64, x (ix2 (i 0) k) * w (ix2 k (i 1)) := rfl

/-- The body's value at point `t`, row `p`, column `q` is `h · W2` at row `5000 t + p`, column `q`. -/
theorem point2 (c : Dev nD) (t : Fin cfg2.N) (p : Fin 5000) (q : Fin 64) (i : S100000x64.Idx)
    (hi0 : (i 0).val = t.val * 5000 + p.val) (hi1 : (i 1).val = q.val) :
    k2_pay1 (iblk2 V c 0 t) (iblk2 V c 1 t) (ix2 p q) = Cert.Gcn.proj 100000 64 64 (V c main_v42) (V c main_arg5) i := by
  refine ((k2_pay1_apply _ _ p q).trans ?_).trans (proj_apply_r2 _ _ i).symm
  refine Finset.sum_congr rfl fun k _ => ?_
  rw [iblk2_0_apply V c t p k (ix2 (i 0) k) hi0 rfl, iblk2_1_apply V c t k q (ix2 k (i 1)) rfl hi1]

/-- WHAT POINT `t` WRITES BACK is block `t` of `h · W2` of the two arrays the region found. -/
theorem flushed2_eq (c : Dev nD) (t : Fin cfg2.N) :
    (dat2 (F := Ideal) V c).flushed 2 t = ((cfg2.win 2).blk t).view.read (Elt Ideal) (Cert.Gcn.proj 100000 64 64 (V c main_v42) (V c main_arg5)) := by
  show (cfg2.win 2).cut (grid2.coords t) ((dat2 V c).after 2 t) = _
  rw [after2_2]
  unfold out2_2
  rw [View.canon_unit_zero hz_r2]
  simp only [View.ld_unit_zero (S := S5000x64) hz_r2, View.ld_unit_zero (S := S64x64) hz_r2]
  obtain ⟨-, -, -, -, e0, e1⟩ := idx_facts2 t
  funext j
  obtain ⟨p, q, rfl⟩ : ∃ (p : Fin 5000) (q : Fin 64), j = ix2 p q := ⟨j 0, j 1, eq_ix2 j⟩
  show k2_pay1 (iblk2 V c 0 t) (iblk2 V c 1 t) (ix2 p q) = Cert.Gcn.proj 100000 64 64 (V c main_v42) (V c main_arg5) (((cfg2.win 2).blk t).view.emb (ix2 p q))
  refine point2 V c t p q _ ?_ ?_
  · show win2_2.index t (0 : Fin 2) * 5000 + 1 * p.val = _; rw [e0]; omega
  · show win2_2.index t (1 : Fin 2) * 64 + 1 * q.val = _; rw [e1]; omega

/-! ## From blocks to the array -/

/-- An index of the array is in point `t`'s block iff each coordinate is in the block's range on its axis. -/
theorem mem_blk2 (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v43).slice (win2_2.rect t)).set ↔ _
  rw [View.set_slice_whole, Rect.mem_set_unit]
  exact Iff.rfl

/-- Row `r` lies in the block of point `r / 5000`: the twenty blocks cover the array. -/
theorem cover2 (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨-, -, -, -, e0, e1⟩ := idx_facts2 t
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; rw [e0, ht]; omega
  | ⟨1, _⟩ => show win2_2.index t (1 : Fin 2) * 64 ≤ (i 1).val ∧ (i 1).val < win2_2.index t (1 : Fin 2) * 64 + 64; rw [e1]; omega

/-- After region 2 its result array holds `h · W2` of the two arrays the region found. -/
theorem arr2 (c : Dev nD) :
    (dat2 (F := Ideal) V c).arrAt 2 cfg2.N = Cert.Gcn.proj 100000 64 64 (V c main_v42) (V c main_arg5) :=
  (dat2 V c).arrAt_eq_of_cover 2 _ (fun t _ => flushed2_eq V c t) cover2

end Cert.KernelIdeal.Hand

end
-- ==== Proof.Relu3.lean ====
/-
  Region 3: the second layer's bias and rectifier. Every grid point writes back rows `5000 t … 5000 t + 4999` of
  `max (agg + b2, 0)`, and the twenty blocks tile the array.
-/
import proofs.«430725_j9938554323662_3_alg».proof.Proof.Gen.KernelIdeal.Frame
import proofs.«430725_j9938554323662_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- The zero offset of a whole-buffer access, as a constant function. -/
theorem zero_off_r3 : (![0, 0] : Fin 2 → Nat) = fun _ => 0 := funext fun a => by fin_cases a <;> rfl

/-- The body's payload at an index: the block's entry plus the bias at the column, cut below at zero. -/
theorem pay_apply_r3 (v0 : Vec Ideal S5000x64 .f32) (v2 : Vec Ideal S1x64 .f32) (p : Fin 5000) (q : Fin 64) :
    k3_pay1 (F := Ideal) v0 v2 (ix2 p q) = max (v0 (ix2 p q) + v2 (ix2 (0 : Fin 1) q)) 0 := by
  unfold k3_pay1
  rw [maximumf_apply, addf_apply, broadcast_apply, shapeCast_self, shapeCast_self, broadcastTo_1b_ab_apply]
  rw [Ideal.ofBits_def, Ideal.ofBits_zero_f32]

/-- The printed index maps over the grid: windows 0 and 2 sit at block row `t`, column block 0; window 1 stays at block (0, 0). -/
theorem idx_facts_r3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Window 0's block at point `t` is rows `5000 t …` of the first array. -/
theorem iblk0_apply_r3 (c : Dev nD) (t : Fin cfg3.N) (x : S5000x64.Idx) (k : S100000x64.Idx)
    (hk0 : (k 0).val = 5000 * t.val + (x 0).val) (hk1 : (k 1).val = (x 1).val) :
    (iblk3 (F := Ideal) V c 0 t : Vec Ideal S5000x64 .f32) x = (V c main_v56 : S100000x64.Idx → EReal) k := by
  obtain ⟨e0, e1, -⟩ := idx_facts_r3 t
  unfold iblk3
  rw [View.read_apply]
  show V c main_v56 _ = V c main_v56 _
  congr 1
  funext a; apply Fin.ext
  match a with
  | ⟨0, _⟩ => show win3_0.index t (0 : Fin 2) * 5000 + 1 * (x 0).val = (k 0).val; rw [e0, hk0]; omega
  | ⟨1, _⟩ => show win3_0.index t (1 : Fin 2) * 64 + 1 * (x 1).val = (k 1).val; rw [e1, hk1]; omega

/-- Window 1's block at every point is the whole bias row. -/
theorem iblk1_apply_r3 (c : Dev nD) (t : Fin cfg3.N) (x : S1x64.Idx) :
    (iblk3 (F := Ideal) V c 1 t : Vec Ideal S1x64 .f32) x = (V c main_v57 : S1x64.Idx → EReal) x := by
  obtain ⟨-, -, e0, e1, -⟩ := idx_facts_r3 t
  unfold iblk3
  rw [View.read_apply]
  show V c main_v57 _ = V c main_v57 _
  congr 1
  funext a; apply Fin.ext
  match a with
  | ⟨0, _⟩ => show win3_1.index t (0 : Fin 2) * 1 + 1 * (x 0).val = (x 0).val; rw [e0]; omega
  | ⟨1, _⟩ => show win3_1.index t (1 : Fin 2) * 64 + 1 * (x 1).val = (x 1).val; rw [e1]; omega

/-- One point's result at one index, from what the two blocks hold there: it is the whole-array function at the
    array index `i` the block index sits at. -/
theorem point_r3 (A : S100000x64.Idx → EReal) (B : S1x64.Idx → EReal) (x0 : Vec Ideal S5000x64 .f32) (x1 : Vec Ideal S1x64 .f32)
    (p : Fin 5000) (q : Fin 64) (i : S100000x64.Idx) (h0 : x0 (ix2 p q) = A i)
    (h1 : x1 (ix2 (0 : Fin 1) q) = B (ix2 (0 : Fin 1) q)) (hi : (i 1).val = q.val) :
    k3_pay1 (F := Ideal) x0 x1 (ix2 p q) = Cert.Gcn.biasRelu 100000 64 A B i := by
  rw [pay_apply_r3, h0, h1]
  have hq : (ix2 (0 : Fin 1) q : S1x64.Idx) = ix2 (n1 := 64) (0 : Fin 1) (i 1) := congrArg (ix2 (n1 := 64) (0 : Fin 1)) (Fin.ext hi.symm)
  rw [hq]
  rfl

/-- What point `t` writes back is block `t` of the whole-array function of the two arrays the region found. -/
theorem flushed_eq_r3 (c : Dev nD) (t : Fin cfg3.N) :
    (dat3 (F := Ideal) V c).flushed 2 t
      = ((cfg3.win 2).blk t).view.read (Elt Ideal) (Cert.Gcn.biasRelu 100000 64 (V c main_v56) (V c main_v57)) := by
  show (cfg3.win 2).cut (grid3.coords t) ((dat3 (F := Ideal) V c).after 2 t) = _
  rw [after3_2]
  unfold out3_2
  rw [View.canon_unit_zero zero_off_r3]
  simp only [View.ld_unit_zero (S := S5000x64) zero_off_r3, View.ld_unit_zero (S := S1x64) zero_off_r3]
  obtain ⟨-, -, -, -, e0, e1⟩ := idx_facts_r3 t
  funext j
  obtain ⟨p, q, rfl⟩ : ∃ (p : Fin 5000) (q : Fin 64), j = ix2 p q := ⟨j 0, j 1, eq_ix2 j⟩
  show k3_pay1 (F := Ideal) (iblk3 V c 0 t) (iblk3 V c 1 t) (ix2 p q)
    = Cert.Gcn.biasRelu 100000 64 (V c main_v56) (V c main_v57) (((cfg3.win 2).blk t).view.emb (ix2 p q))
  refine point_r3 _ _ _ _ p q _ ?_ ?_ ?_
  · refine iblk0_apply_r3 V c t (ix2 p q) _ ?_ ?_
    · show win3_2.index t (0 : Fin 2) * 5000 + 1 * p.val = 5000 * t.val + p.val; rw [e0]; omega
    · show win3_2.index t (1 : Fin 2) * 64 + 1 * q.val = q.val; rw [e1]; omega
  · exact iblk1_apply_r3 V c t _
  · show win3_2.index t (1 : Fin 2) * 64 + 1 * q.val = q.val; rw [e1]; omega

/-- An index of the array is in point `t`'s block iff each coordinate is in the block's range on its axis. -/
theorem mem_blk_r3 (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v58).slice (win3_2.rect t)).set ↔ _
  rw [View.set_slice_whole, Rect.mem_set_unit]
  exact Iff.rfl

/-- Every index of the array lies in the block of the point its row falls to, `row / 5000`. -/
theorem cover_r3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 20 := N_3
  refine ⟨⟨(i 0).val / 5000, by rw [hN]; omega⟩, flush3_2 _, ?_⟩
  obtain ⟨-, -, -, -, e0, e1⟩ := idx_facts_r3 ⟨(i 0).val / 5000, by rw [hN]; omega⟩
  rw [mem_blk_r3]
  intro a
  match a with
  | ⟨0, _⟩ =>
    show win3_2.index _ (0 : Fin 2) * 5000 ≤ (i 0).val ∧ (i 0).val < win3_2.index _ (0 : Fin 2) * 5000 + 5000
    rw [e0]; show (i 0).val / 5000 * 5000 ≤ (i 0).val ∧ (i 0).val < (i 0).val / 5000 * 5000 + 5000; omega
  | ⟨1, _⟩ =>
    show win3_2.index _ (1 : Fin 2) * 64 ≤ (i 1).val ∧ (i 1).val < win3_2.index _ (1 : Fin 2) * 64 + 64
    rw [e1]; omega

/-- After region 3 its result array holds `max (agg + b, 0)` of the two arrays the region found. -/
theorem arr3 (c : Dev nD) :
    (dat3 (F := Ideal) V c).arrAt 2 cfg3.N = Cert.Gcn.biasRelu 100000 64 (V c main_v56) (V c main_v57) :=
  (dat3 (F := Ideal) V c).arrAt_eq_of_cover 2 (Cert.Gcn.biasRelu 100000 64 (V c main_v56) (V c main_v57))
    (fun t _ => flushed_eq_r3 V c t) cover_r3

end Cert.KernelIdeal.Hand

end
-- ==== Proof.Stretch0.lean ====
/-
  The first stretch of host operations: from the edge list, the source and target node of every edge (the self loops
  appended), the degrees counted at the targets, and the symmetric normalisation `deg[src]^(-1/2) · deg[dst]^(-1/2)` of every
  edge. The kernel's program and the reference apply the same operations here; read at the edge list they are the
  reference's stages.
-/
import proofs.«430725_j9938554323662_3_alg».proof.Proof.Gen.KernelIdeal.Launch
import proofs.«430725_j9938554323662_3_alg».proof.Proof.Gen.ReferenceIdeal.Read
import Idealize.ShloMosaic.Lib.StableHlo.Run

noncomputable section

open Idealize.ShloMosaic Idealize.ShloMosaic.TcCoe Idealize.SL.Sem

namespace Cert.KernelIdeal.Hand

open Cert.KernelIdeal Cert.KernelIdeal.Gen
open Cert.ReferenceIdeal.Read

/-- A host operation's result read at a buffer: at the buffer it writes, its function of its operands' contents; at any
    other buffer, what was there. -/
local macro "host_results" : tactic =>
  `(tactic| repeat (first
      | rw [StableHlo.nullary_result] | rw [StableHlo.unary_result] | rw [StableHlo.binary_result]
      | rw [StableHlo.ternary_result] | rw [StableHlo.reshape_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)
      | (rw [StableHlo.reshape_result_ne]; rotate_left; decide)))

variable (W : Valuation τ sig (Elt Ideal))

variable (x1 : (⟨Cert.ReferenceIdeal.S2x1600000, .i32⟩ : BufTy).Contents (Elt Ideal))

/-- The source nodes. -/
theorem stretch0_src (h1 : W (Proc.devRef .tc main_arg1) = x1) :
    StableHlo.after hostOps0 W (Proc.devRef .tc main_v3) = val_main_v3 (F := Ideal) x1 := by
  after_results
  rw [h1]
  unfold val_main_v3 val_main_v2 val_main_v1 val_main_v0
  rfl

/-- The target nodes. -/
theorem stretch0_dst (h1 : W (Proc.devRef .tc main_arg1) = x1) :
    StableHlo.after hostOps0 W (Proc.devRef .tc main_v6) = val_main_v6 (F := Ideal) x1 := by
  after_results
  rw [h1]
  unfold val_main_v6 val_main_v5 val_main_v4 val_main_v0
  rfl

set_option maxHeartbeats 4000000 in
/-- The edges' normalisation. -/
theorem stretch0_norm (h1 : W (Proc.devRef .tc main_arg1) = x1) :
    StableHlo.after hostOps0 W (Proc.devRef .tc main_v26) = val_main_v26 (F := Ideal) x1 := by
  after_results_simp
  host_results
  rw [h1]
  unfold val_main_v26 val_main_v25 val_main_v24 val_main_v23 val_main_v22 val_main_v21 val_main_c_3 val_main_v20 val_main_v19
    val_main_c_2 val_main_v18 val_main_v17 val_main_v16 val_main_v15 val_main_v14 val_main_c_1 val_main_v13 val_main_v12
    val_main_c val_main_v11 val_main_v10 val_main_v9 val_main_v8 val_main_cst_0 val_main_v7 val_main_cst val_main_v6
    val_main_v5 val_main_v4 val_main_v3 val_main_v2 val_main_v1 val_main_v0
  rfl

/-! The stretch writes none of the program's arguments. -/

theorem stretch0_arg0 : StableHlo.after hostOps0 W (Proc.devRef .tc main_arg0) = W (Proc.devRef .tc main_arg0) := by after_results
theorem stretch0_arg2 : StableHlo.after hostOps0 W (Proc.devRef .tc main_arg2) = W (Proc.devRef .tc main_arg2) := by after_results
theorem stretch0_arg3 : StableHlo.after hostOps0 W (Proc.devRef .tc main_arg3) = W (Proc.devRef .tc main_arg3) := by after_results
theorem stretch0_arg4 : StableHlo.after hostOps0 W (Proc.devRef .tc main_arg4) = W (Proc.devRef .tc main_arg4) := by after_results
theorem stretch0_arg5 : StableHlo.after hostOps0 W (Proc.devRef .tc main_arg5) = W (Proc.devRef .tc main_arg5) := by after_results
theorem stretch0_arg6 : StableHlo.after hostOps0 W (Proc.devRef .tc main_arg6) = W (Proc.devRef .tc main_arg6) := by after_results
theorem stretch0_arg7 : StableHlo.after hostOps0 W (Proc.devRef .tc main_arg7) = W (Proc.devRef .tc main_arg7) := by after_results
theorem stretch0_arg8 : StableHlo.after hostOps0 W (Proc.devRef .tc main_arg8) = W (Proc.devRef .tc main_arg8) := by after_results

end Cert.KernelIdeal.Hand

end
-- ==== Proof.Stretch1.lean ====
/-
  The second stretch of host operations, between the first projection and the first rectifier: every edge's message is its
  normalisation times the projected row of its source node, and the messages are summed at their target nodes; the bias
  vector is laid out as a row. The aggregation is the reference's, operation for operation; read at the same projected
  table and the same edge list it is the reference's stage.
-/
import proofs.«430725_j9938554323662_3_alg».proof.Proof.Gen.KernelIdeal.Launch
import proofs.«430725_j9938554323662_3_alg».proof.Proof.Gen.ReferenceIdeal.Read
import Idealize.ShloMosaic.Lib.StableHlo.Run

noncomputable section

open Idealize.ShloMosaic Idealize.ShloMosaic.TcCoe Idealize.SL.Sem

namespace Cert.KernelIdeal.Hand

open Cert.KernelIdeal Cert.KernelIdeal.Gen
open Cert.ReferenceIdeal.Read

/-- A host operation's result read at a buffer: at the buffer it writes, its function of its operands' contents; at any
    other buffer, what was there. -/
local macro "host_results" : tactic =>
  `(tactic| repeat (first
      | rw [StableHlo.nullary_result] | rw [StableHlo.unary_result] | rw [StableHlo.binary_result]
      | rw [StableHlo.ternary_result] | rw [StableHlo.reshape_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)
      | (rw [StableHlo.reshape_result_ne]; rotate_left; decide)))

variable (W : Valuation τ sig (Elt Ideal))

variable (x0 : (⟨Cert.ReferenceIdeal.S100000x3, .f32⟩ : BufTy).Contents (Elt Ideal))
variable (x1 : (⟨Cert.ReferenceIdeal.S2x1600000, .i32⟩ : BufTy).Contents (Elt Ideal))
variable (x3 : (⟨Cert.ReferenceIdeal.S3x64, .f32⟩ : BufTy).Contents (Elt Ideal))

set_option maxHeartbeats 4000000 in
/-- The first layer's aggregated table. -/
theorem stretch1_agg (h26 : W (Proc.devRef .tc main_v26) = val_main_v26 (F := Ideal) x1)
    (h3 : W (Proc.devRef .tc main_v3) = val_main_v3 (F := Ideal) x1) (h6 : W (Proc.devRef .tc main_v6) = val_main_v6 (F := Ideal) x1)
    (h27 : W (Proc.devRef .tc main_v27) = val_main_v27 (F := Ideal) x0 x3) :
    StableHlo.after hostOps1 W (Proc.devRef .tc main_v40) = val_main_v40 (F := Ideal) x0 x1 x3 := by
  after_results_simp
  rw [h26, h3, h6, h27]
  unfold val_main_v40 val_main_v39 val_main_v38 val_main_cst_6 val_main_v37 val_main_v36 val_main_v35 val_main_v34 val_main_v33
    val_main_v32 val_main_v31 val_main_c_5 val_main_v30 val_main_v29 val_main_c_4 val_main_v28
  rfl

/-- The bias as a row: entry `(0, q)` of the row is entry `q` of the vector. -/
theorem stretch1_bias (j : S1x64.Idx) :
    (StableHlo.after hostOps1 W (Proc.devRef .tc main_v41) : S1x64.Idx → EReal) j
      = (W (Proc.devRef .tc main_arg4) : S64.Idx → EReal) (idx_main_v41 j) := by
  after_results
  refine shapeCast_apply _ _ j _ ?_
  show (S64.rowMajor (idx_main_v41 j)).val = (S1x64.rowMajor j).val
  rw [Shape.rowMajor_val_one, Shape.rowMajor_val_two]
  have h0 : (j 0).val < 1 := (j 0).isLt
  show (j 1).val = (j 0).val * 64 + (j 1).val
  omega

/-! The stretch writes none of these. -/

theorem stretch1_v3 : StableHlo.after hostOps1 W (Proc.devRef .tc main_v3) = W (Proc.devRef .tc main_v3) := by after_results
theorem stretch1_v6 : StableHlo.after hostOps1 W (Proc.devRef .tc main_v6) = W (Proc.devRef .tc main_v6) := by after_results
theorem stretch1_v26 : StableHlo.after hostOps1 W (Proc.devRef .tc main_v26) = W (Proc.devRef .tc main_v26) := by after_results
theorem stretch1_arg2 : StableHlo.after hostOps1 W (Proc.devRef .tc main_arg2) = W (Proc.devRef .tc main_arg2) := by after_results
theorem stretch1_arg5 : StableHlo.after hostOps1 W (Proc.devRef .tc main_arg5) = W (Proc.devRef .tc main_arg5) := by after_results
theorem stretch1_arg6 : StableHlo.after hostOps1 W (Proc.devRef .tc main_arg6) = W (Proc.devRef .tc main_arg6) := by after_results
theorem stretch1_arg7 : StableHlo.after hostOps1 W (Proc.devRef .tc main_arg7) = W (Proc.devRef .tc main_arg7) := by after_results
theorem stretch1_arg8 : StableHlo.after hostOps1 W (Proc.devRef .tc main_arg8) = W (Proc.devRef .tc main_arg8) := by after_results

end Cert.KernelIdeal.Hand

end
-- ==== Proof.Stretch3.lean ====
/-
  The third stretch of host operations, between the second projection and the second rectifier: the same aggregation over
  the same edges, of the second layer's projected table; the second bias vector laid out as a row.
-/
import proofs.«430725_j9938554323662_3_alg».proof.Proof.Gen.KernelIdeal.Launch
import proofs.«430725_j9938554323662_3_alg».proof.Proof.Gen.ReferenceIdeal.Read
import Idealize.ShloMosaic.Lib.StableHlo.Run

noncomputable section

open Idealize.ShloMosaic Idealize.ShloMosaic.TcCoe Idealize.SL.Sem

namespace Cert.KernelIdeal.Hand

open Cert.KernelIdeal Cert.KernelIdeal.Gen
open Cert.ReferenceIdeal.Read

/-- A host operation's result read at a buffer: at the buffer it writes, its function of its operands' contents; at any
    other buffer, what was there. -/
local macro "host_results" : tactic =>
  `(tactic| repeat (first
      | rw [StableHlo.nullary_result] | rw [StableHlo.unary_result] | rw [StableHlo.binary_result]
      | rw [StableHlo.ternary_result] | rw [StableHlo.reshape_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)
      | (rw [StableHlo.reshape_result_ne]; rotate_left; decide)))

variable (W : Valuation τ sig (Elt Ideal))

variable (x0 : (⟨Cert.ReferenceIdeal.S100000x3, .f32⟩ : BufTy).Contents (Elt Ideal))
variable (x1 : (⟨Cert.ReferenceIdeal.S2x1600000, .i32⟩ : BufTy).Contents (Elt Ideal))
variable (x3 : (⟨Cert.ReferenceIdeal.S3x64, .f32⟩ : BufTy).Contents (Elt Ideal))
variable (x4 : (⟨Cert.ReferenceIdeal.S64, .f32⟩ : BufTy).Contents (Elt Ideal))
variable (x5 : (⟨Cert.ReferenceIdeal.S64x64, .f32⟩ : BufTy).Contents (Elt Ideal))

set_option maxHeartbeats 4000000 in
/-- The second layer's aggregated table. -/
theorem stretch3_agg (h26 : W (Proc.devRef .tc main_v26) = val_main_v26 (F := Ideal) x1)
    (h3 : W (Proc.devRef .tc main_v3) = val_main_v3 (F := Ideal) x1) (h6 : W (Proc.devRef .tc main_v6) = val_main_v6 (F := Ideal) x1)
    (h43 : W (Proc.devRef .tc main_v43) = val_main_v45 (F := Ideal) x0 x1 x3 x4 x5) :
    StableHlo.after hostOps3 W (Proc.devRef .tc main_v56) = val_main_v58 (F := Ideal) x0 x1 x3 x4 x5 := by
  after_results_simp
  rw [h26, h3, h6, h43]
  unfold val_main_v58 val_main_v57 val_main_v56 val_main_cst_9 val_main_v55 val_main_v54 val_main_v53 val_main_v52 val_main_v51
    val_main_v50 val_main_v49 val_main_c_8 val_main_v48 val_main_v47 val_main_c_7 val_main_v46
  rfl

/-- The bias as a row: entry `(0, q)` of the row is entry `q` of the vector. -/
theorem stretch3_bias (j : S1x64.Idx) :
    (StableHlo.after hostOps3 W (Proc.devRef .tc main_v57) : S1x64.Idx → EReal) j
      = (W (Proc.devRef .tc main_arg6) : S64.Idx → EReal) (idx_main_v59 j) := by
  after_results
  refine shapeCast_apply _ _ j _ ?_
  show (S64.rowMajor (idx_main_v59 j)).val = (S1x64.rowMajor j).val
  rw [Shape.rowMajor_val_one, Shape.rowMajor_val_two]
  have h0 : (j 0).val < 1 := (j 0).isLt
  show (j 1).val = (j 0).val * 64 + (j 1).val
  omega

/-! The stretch writes none of these. -/

theorem stretch3_arg2 : StableHlo.after hostOps3 W (Proc.devRef .tc main_arg2) = W (Proc.devRef .tc main_arg2) := by after_results
theorem stretch3_arg7 : StableHlo.after hostOps3 W (Proc.devRef .tc main_arg7) = W (Proc.devRef .tc main_arg7) := by after_results
theorem stretch3_arg8 : StableHlo.after hostOps3 W (Proc.devRef .tc main_arg8) = W (Proc.devRef .tc main_arg8) := by after_results

end Cert.KernelIdeal.Hand

end
-- ==== Proof.Stretch4.lean ====
/-
  The last stretch of host operations: the node table summed per graph, divided by the graph's node count (at least one),
  and the final dense layer. The reference's operations, one for one; read at the same node table, graph assignment and
  weights they are the reference's result.
-/
import proofs.«430725_j9938554323662_3_alg».proof.Proof.Gen.KernelIdeal.Launch
import proofs.«430725_j9938554323662_3_alg».proof.Proof.Gen.ReferenceIdeal.Read
import Idealize.ShloMosaic.Lib.StableHlo.Run

noncomputable section

open Idealize.ShloMosaic Idealize.ShloMosaic.TcCoe Idealize.SL.Sem

namespace Cert.KernelIdeal.Hand

open Cert.KernelIdeal Cert.KernelIdeal.Gen
open Cert.ReferenceIdeal.Read

/-- A host operation's result read at a buffer: at the buffer it writes, its function of its operands' contents; at any
    other buffer, what was there. -/
local macro "host_results" : tactic =>
  `(tactic| repeat (first
      | rw [StableHlo.nullary_result] | rw [StableHlo.unary_result] | rw [StableHlo.binary_result]
      | rw [StableHlo.ternary_result] | rw [StableHlo.reshape_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)
      | (rw [StableHlo.reshape_result_ne]; rotate_left; decide)))

variable (W : Valuation τ sig (Elt Ideal))

variable (x0 : (⟨Cert.ReferenceIdeal.S100000x3, .f32⟩ : BufTy).Contents (Elt Ideal))
variable (x1 : (⟨Cert.ReferenceIdeal.S2x1600000, .i32⟩ : BufTy).Contents (Elt Ideal))
variable (x2 : (⟨Cert.ReferenceIdeal.S100000, .i32⟩ : BufTy).Contents (Elt Ideal))
variable (x3 : (⟨Cert.ReferenceIdeal.S3x64, .f32⟩ : BufTy).Contents (Elt Ideal))
variable (x4 : (⟨Cert.ReferenceIdeal.S64, .f32⟩ : BufTy).Contents (Elt Ideal))
variable (x5 : (⟨Cert.ReferenceIdeal.S64x64, .f32⟩ : BufTy).Contents (Elt Ideal))
variable (x6 : (⟨Cert.ReferenceIdeal.S64, .f32⟩ : BufTy).Contents (Elt Ideal))
variable (x7 : (⟨Cert.ReferenceIdeal.S64x5, .f32⟩ : BufTy).Contents (Elt Ideal))
variable (x8 : (⟨Cert.ReferenceIdeal.S5, .f32⟩ : BufTy).Contents (Elt Ideal))

set_option maxHeartbeats 4000000 in
/-- The program's result. -/
theorem stretch4_out (h58 : W (Proc.devRef .tc main_v58) = val_main_v62 (F := Ideal) x0 x1 x3 x4 x5 x6)
    (h2 : W (Proc.devRef .tc main_arg2) = x2) (h7 : W (Proc.devRef .tc main_arg7) = x7) (h8 : W (Proc.devRef .tc main_arg8) = x8) :
    StableHlo.after hostOps4 W (Proc.devRef .tc main_v74) = val_main_v78 (F := Ideal) x0 x1 x2 x3 x4 x5 x6 x7 x8 := by
  after_results_simp
  rw [h58, h2, h7, h8]
  unfold val_main_v78 val_main_v77 val_main_v76 val_main_v75 val_main_v74 val_main_v73 val_main_v72 val_main_v71 val_main_v70
    val_main_cst_13 val_main_v69 val_main_v68 val_main_v67 val_main_cst_12 val_main_v66 val_main_cst_11 val_main_v65 val_main_v64
    val_main_v63 val_main_cst_10
  rfl

end Cert.KernelIdeal.Hand

end
-- ==== Proof.KernelValue.lean ====
/-
  The kernel's program, boundary by boundary. Its four dense passes sit among the same host operations the reference
  applies: the edge lists and the normalisation, then per layer a projection (a region), the aggregation over the edges
  (host), the bias and rectifier (a region), and at last the pooling per graph and the final dense layer (host). At every
  boundary the buffers the next piece reads hold the reference's stage of the same name: a region's result array is
  `x · W` or `max (a + b, 0)` of the arrays it found, which read index by index is the reference's `dot_general` or its
  `maximum (add …) 0`; a host stretch applies the reference's own operations to equal operands. So the result array ends
  at the reference's result as a function of the nine arguments.
-/
import proofs.«430725_j9938554323662_3_alg».proof.Proof.Gen.KernelIdeal.Frame
import proofs.«430725_j9938554323662_3_alg».proof.Proof.Gen.ReferenceIdeal.Read
import proofs.«430725_j9938554323662_3_alg».proof.Proof.Spec
import proofs.«430725_j9938554323662_3_alg».proof.Proof.Proj0
import proofs.«430725_j9938554323662_3_alg».proof.Proof.Relu1
import proofs.«430725_j9938554323662_3_alg».proof.Proof.Proj2
import proofs.«430725_j9938554323662_3_alg».proof.Proof.Relu3
import proofs.«430725_j9938554323662_3_alg».proof.Proof.Stretch0
import proofs.«430725_j9938554323662_3_alg».proof.Proof.Stretch1
import proofs.«430725_j9938554323662_3_alg».proof.Proof.Stretch3
import proofs.«430725_j9938554323662_3_alg».proof.Proof.Stretch4

noncomputable section

open Idealize.ShloMosaic Idealize.ShloMosaic.TcCoe Idealize.SL.Sem Idealize.ShloMosaic.ValueIdx

namespace Cert.KernelIdeal.Hand

open Cert.KernelIdeal Cert.KernelIdeal.Gen
open Cert.ReferenceIdeal.Read

/-! ## The two dense passes read index by index are the reference's operations -/

/-- `x · W1` is the reference's first `dot_general`. -/
theorem proj_eq_v27 (x0 : (⟨Cert.ReferenceIdeal.S100000x3, .f32⟩ : BufTy).Contents (Elt Ideal)) (x3 : (⟨Cert.ReferenceIdeal.S3x64, .f32⟩ : BufTy).Contents (Elt Ideal)) :
    Cert.Gcn.proj 100000 3 64 x0 x3 = val_main_v27 (F := Ideal) x0 x3 := by
  funext i
  rw [val_main_v27_apply]
  refine Finset.sum_congr rfl fun k _ => ?_
  have el : (ix2 (i 0) k : S100000x3.Idx) = lidx_main_v27 i k := funext fun a => by match a with | ⟨0, _⟩ => rfl | ⟨1, _⟩ => rfl
  have er : (ix2 k (i 1) : S3x64.Idx) = ridx_main_v27 i k := funext fun a => by match a with | ⟨0, _⟩ => rfl | ⟨1, _⟩ => rfl
  rw [el, er]

/-- `h · W2` is the reference's second `dot_general`. -/
theorem proj_eq_v45 (x0 : (⟨Cert.ReferenceIdeal.S100000x3, .f32⟩ : BufTy).Contents (Elt Ideal)) (x1 : (⟨Cert.ReferenceIdeal.S2x1600000, .i32⟩ : BufTy).Contents (Elt Ideal)) (x3 : (⟨Cert.ReferenceIdeal.S3x64, .f32⟩ : BufTy).Contents (Elt Ideal)) (x4 : (⟨Cert.ReferenceIdeal.S64, .f32⟩ : BufTy).Contents (Elt Ideal)) (x5 : (⟨Cert.ReferenceIdeal.S64x64, .f32⟩ : BufTy).Contents (Elt Ideal)) :
    Cert.Gcn.proj 100000 64 64 (val_main_v44 (F := Ideal) x0 x1 x3 x4) x5 = val_main_v45 (F := Ideal) x0 x1 x3 x4 x5 := by
  funext i
  rw [val_main_v45_apply]
  generalize val_main_v44 (F := Ideal) x0 x1 x3 x4 = y
  refine Finset.sum_congr rfl fun k _ => ?_
  have el : (ix2 (i 0) k : S100000x64.Idx) = lidx_main_v45 i k := funext fun a => by match a with | ⟨0, _⟩ => rfl | ⟨1, _⟩ => rfl
  have er : (ix2 k (i 1) : S64x64.Idx) = ridx_main_v45 i k := funext fun a => by match a with | ⟨0, _⟩ => rfl | ⟨1, _⟩ => rfl
  rw [el, er]

/-- `max (agg + b1, 0)`, the bias read through its row, is the reference's first rectified layer. -/
theorem relu_eq_v44 (x0 : (⟨Cert.ReferenceIdeal.S100000x3, .f32⟩ : BufTy).Contents (Elt Ideal)) (x1 : (⟨Cert.ReferenceIdeal.S2x1600000, .i32⟩ : BufTy).Contents (Elt Ideal)) (x3 : (⟨Cert.ReferenceIdeal.S3x64, .f32⟩ : BufTy).Contents (Elt Ideal)) (x4 : (⟨Cert.ReferenceIdeal.S64, .f32⟩ : BufTy).Contents (Elt Ideal)) (b : S1x64.Idx → EReal)
    (hb : ∀ j : S1x64.Idx, b j = x4 (idx_main_v41 j)) :
    Cert.Gcn.biasRelu 100000 64 (val_main_v40 (F := Ideal) x0 x1 x3) b = val_main_v44 (F := Ideal) x0 x1 x3 x4 := by
  funext i
  rw [val_main_v44_apply, val_main_v43_apply, val_main_v42_apply, val_main_v41_apply, val_main_call0_v0_apply, val_main_call0_cst_apply]
  generalize val_main_v40 (F := Ideal) x0 x1 x3 = a
  show max (a i + b (ix2 (0 : Fin 1) (i 1))) 0 = max (a i + x4 (idx_main_v41 (idx_main_v42 i))) (Ideal.ofBits .f32 0x00000000#32)
  rw [hb, Ideal.ofBits_zero_f32]

/-- `max (agg + b2, 0)`, the bias read through its row, is the reference's second rectified layer. -/
theorem relu_eq_v62 (x0 : (⟨Cert.ReferenceIdeal.S100000x3, .f32⟩ : BufTy).Contents (Elt Ideal)) (x1 : (⟨Cert.ReferenceIdeal.S2x1600000, .i32⟩ : BufTy).Contents (Elt Ideal)) (x3 : (⟨Cert.ReferenceIdeal.S3x64, .f32⟩ : BufTy).Contents (Elt Ideal)) (x4 : (⟨Cert.ReferenceIdeal.S64, .f32⟩ : BufTy).Contents (Elt Ideal)) (x5 : (⟨Cert.ReferenceIdeal.S64x64, .f32⟩ : BufTy).Contents (Elt Ideal)) (x6 : (⟨Cert.ReferenceIdeal.S64, .f32⟩ : BufTy).Contents (Elt Ideal))
    (b : S1x64.Idx → EReal) (hb : ∀ j : S1x64.Idx, b j = x6 (idx_main_v59 j)) :
    Cert.Gcn.biasRelu 100000 64 (val_main_v58 (F := Ideal) x0 x1 x3 x4 x5) b = val_main_v62 (F := Ideal) x0 x1 x3 x4 x5 x6 := by
  funext i
  rw [val_main_v62_apply, val_main_v61_apply, val_main_v60_apply, val_main_v59_apply, val_main_call1_v0_apply, val_main_call1_cst_apply]
  generalize val_main_v58 (F := Ideal) x0 x1 x3 x4 x5 = a
  show max (a i + b (ix2 (0 : Fin 1) (i 1))) 0 = max (a i + x6 (idx_main_v59 (idx_main_v60 i))) (Ideal.ofBits .f32 0x00000000#32)
  rw [hb, Ideal.ofBits_zero_f32]

/-! ## The run's boundaries -/

variable (m : (ℓ : Loc nD τ sig) → Buf (Elt Ideal) ℓ) (ρ : Dev nD → PrngReg)

/-- The nine arguments as launched. -/
abbrev a0 (c : Dev nD) : (⟨Cert.ReferenceIdeal.S100000x3, .f32⟩ : BufTy).Contents (Elt Ideal) := m ((c : Thread nD τ).loc main_arg0)
abbrev a1 (c : Dev nD) : (⟨Cert.ReferenceIdeal.S2x1600000, .i32⟩ : BufTy).Contents (Elt Ideal) := m ((c : Thread nD τ).loc main_arg1)
abbrev a2 (c : Dev nD) : (⟨Cert.ReferenceIdeal.S100000, .i32⟩ : BufTy).Contents (Elt Ideal) := m ((c : Thread nD τ).loc main_arg2)
abbrev a3 (c : Dev nD) : (⟨Cert.ReferenceIdeal.S3x64, .f32⟩ : BufTy).Contents (Elt Ideal) := m ((c : Thread nD τ).loc main_arg3)
abbrev a4 (c : Dev nD) : (⟨Cert.ReferenceIdeal.S64, .f32⟩ : BufTy).Contents (Elt Ideal) := m ((c : Thread nD τ).loc main_arg4)
abbrev a5 (c : Dev nD) : (⟨Cert.ReferenceIdeal.S64x64, .f32⟩ : BufTy).Contents (Elt Ideal) := m ((c : Thread nD τ).loc main_arg5)
abbrev a6 (c : Dev nD) : (⟨Cert.ReferenceIdeal.S64, .f32⟩ : BufTy).Contents (Elt Ideal) := m ((c : Thread nD τ).loc main_arg6)
abbrev a7 (c : Dev nD) : (⟨Cert.ReferenceIdeal.S64x5, .f32⟩ : BufTy).Contents (Elt Ideal) := m ((c : Thread nD τ).loc main_arg7)
abbrev a8 (c : Dev nD) : (⟨Cert.ReferenceIdeal.S5, .f32⟩ : BufTy).Contents (Elt Ideal) := m ((c : Thread nD τ).loc main_arg8)

/-! ### After the first host stretch -/

theorem w1_src (c : Dev nD) : W1 m ρ c (Proc.devRef .tc main_v3) = val_main_v3 (F := Ideal) (a1 m c) := stretch0_src (W0 m ρ c) (a1 m c) rfl
theorem w1_dst (c : Dev nD) : W1 m ρ c (Proc.devRef .tc main_v6) = val_main_v6 (F := Ideal) (a1 m c) := stretch0_dst (W0 m ρ c) (a1 m c) rfl
theorem w1_norm (c : Dev nD) : W1 m ρ c (Proc.devRef .tc main_v26) = val_main_v26 (F := Ideal) (a1 m c) := stretch0_norm (W0 m ρ c) (a1 m c) rfl
theorem w1_arg0 (c : Dev nD) : W1 m ρ c (Proc.devRef .tc main_arg0) = a0 m c := stretch0_arg0 (W0 m ρ c)
theorem w1_arg2 (c : Dev nD) : W1 m ρ c (Proc.devRef .tc main_arg2) = a2 m c := stretch0_arg2 (W0 m ρ c)
theorem w1_arg3 (c : Dev nD) : W1 m ρ c (Proc.devRef .tc main_arg3) = a3 m c := stretch0_arg3 (W0 m ρ c)
theorem w1_arg4 (c : Dev nD) : W1 m ρ c (Proc.devRef .tc main_arg4) = a4 m c := stretch0_arg4 (W0 m ρ c)
theorem w1_arg5 (c : Dev nD) : W1 m ρ c (Proc.devRef .tc main_arg5) = a5 m c := stretch0_arg5 (W0 m ρ c)
theorem w1_arg6 (c : Dev nD) : W1 m ρ c (Proc.devRef .tc main_arg6) = a6 m c := stretch0_arg6 (W0 m ρ c)
theorem w1_arg7 (c : Dev nD) : W1 m ρ c (Proc.devRef .tc main_arg7) = a7 m c := stretch0_arg7 (W0 m ρ c)
theorem w1_arg8 (c : Dev nD) : W1 m ρ c (Proc.devRef .tc main_arg8) = a8 m c := stretch0_arg8 (W0 m ρ c)

/-! ### After the first projection -/

theorem w2_proj (c : Dev nD) : W2 m ρ c (Proc.devRef .tc main_v27) = val_main_v27 (F := Ideal) (a0 m c) (a3 m c) := by
  refine (W2_arr m ρ c 2).trans ((arr0 (V1 m ρ) c).trans ?_)
  rw [show V1 m ρ c main_arg0 = a0 m c from w1_arg0 m ρ c, show V1 m ρ c main_arg3 = a3 m c from w1_arg3 m ρ c]
  exact proj_eq_v27 _ _
theorem w2_src (c : Dev nD) : W2 m ρ c (Proc.devRef .tc main_v3) = val_main_v3 (F := Ideal) (a1 m c) := (W2_of_ne m ρ c main_v3 (by decide)).trans (w1_src m ρ c)
theorem w2_dst (c : Dev nD) : W2 m ρ c (Proc.devRef .tc main_v6) = val_main_v6 (F := Ideal) (a1 m c) := (W2_of_ne m ρ c main_v6 (by decide)).trans (w1_dst m ρ c)
theorem w2_norm (c : Dev nD) : W2 m ρ c (Proc.devRef .tc main_v26) = val_main_v26 (F := Ideal) (a1 m c) := (W2_of_ne m ρ c main_v26 (by decide)).trans (w1_norm m ρ c)
theorem w2_arg2 (c : Dev nD) : W2 m ρ c (Proc.devRef .tc main_arg2) = a2 m c := (W2_of_ne m ρ c main_arg2 (by decide)).trans (w1_arg2 m ρ c)
theorem w2_arg4 (c : Dev nD) : W2 m ρ c (Proc.devRef .tc main_arg4) = a4 m c := (W2_of_ne m ρ c main_arg4 (by decide)).trans (w1_arg4 m ρ c)
theorem w2_arg5 (c : Dev nD) : W2 m ρ c (Proc.devRef .tc main_arg5) = a5 m c := (W2_of_ne m ρ c main_arg5 (by decide)).trans (w1_arg5 m ρ c)
theorem w2_arg6 (c : Dev nD) : W2 m ρ c (Proc.devRef .tc main_arg6) = a6 m c := (W2_of_ne m ρ c main_arg6 (by decide)).trans (w1_arg6 m ρ c)
theorem w2_arg7 (c : Dev nD) : W2 m ρ c (Proc.devRef .tc main_arg7) = a7 m c := (W2_of_ne m ρ c main_arg7 (by decide)).trans (w1_arg7 m ρ c)
theorem w2_arg8 (c : Dev nD) : W2 m ρ c (Proc.devRef .tc main_arg8) = a8 m c := (W2_of_ne m ρ c main_arg8 (by decide)).trans (w1_arg8 m ρ c)

/-! ### After the first aggregation -/

theorem w3_agg (c : Dev nD) : W3 m ρ c (Proc.devRef .tc main_v40) = val_main_v40 (F := Ideal) (a0 m c) (a1 m c) (a3 m c) :=
  stretch1_agg (W2 m ρ c) _ _ _ (w2_norm m ρ c) (w2_src m ρ c) (w2_dst m ρ c) (w2_proj m ρ c)
theorem w3_bias (c : Dev nD) (j : S1x64.Idx) : (W3 m ρ c (Proc.devRef .tc main_v41) : S1x64.Idx → EReal) j = a4 m c (idx_main_v41 j) :=
  (stretch1_bias (W2 m ρ c) j).trans (congrFun (w2_arg4 m ρ c) _)
theorem w3_src (c : Dev nD) : W3 m ρ c (Proc.devRef .tc main_v3) = val_main_v3 (F := Ideal) (a1 m c) := (stretch1_v3 (W2 m ρ c)).trans (w2_src m ρ c)
theorem w3_dst (c : Dev nD) : W3 m ρ c (Proc.devRef .tc main_v6) = val_main_v6 (F := Ideal) (a1 m c) := (stretch1_v6 (W2 m ρ c)).trans (w2_dst m ρ c)
theorem w3_norm (c : Dev nD) : W3 m ρ c (Proc.devRef .tc main_v26) = val_main_v26 (F := Ideal) (a1 m c) := (stretch1_v26 (W2 m ρ c)).trans (w2_norm m ρ c)
theorem w3_arg2 (c : Dev nD) : W3 m ρ c (Proc.devRef .tc main_arg2) = a2 m c := (stretch1_arg2 (W2 m ρ c)).trans (w2_arg2 m ρ c)
theorem w3_arg5 (c : Dev nD) : W3 m ρ c (Proc.devRef .tc main_arg5) = a5 m c := (stretch1_arg5 (W2 m ρ c)).trans (w2_arg5 m ρ c)
theorem w3_arg6 (c : Dev nD) : W3 m ρ c (Proc.devRef .tc main_arg6) = a6 m c := (stretch1_arg6 (W2 m ρ c)).trans (w2_arg6 m ρ c)
theorem w3_arg7 (c : Dev nD) : W3 m ρ c (Proc.devRef .tc main_arg7) = a7 m c := (stretch1_arg7 (W2 m ρ c)).trans (w2_arg7 m ρ c)
theorem w3_arg8 (c : Dev nD) : W3 m ρ c (Proc.devRef .tc main_arg8) = a8 m c := (stretch1_arg8 (W2 m ρ c)).trans (w2_arg8 m ρ c)

/-! ### After the first rectifier -/

theorem w4_relu (c : Dev nD) : W4 m ρ c (Proc.devRef .tc main_v42) = val_main_v44 (F := Ideal) (a0 m c) (a1 m c) (a3 m c) (a4 m c) := by
  refine (W4_arr m ρ c 2).trans ((arr1 (V3 m ρ) c).trans ?_)
  rw [show V3 m ρ c main_v40 = val_main_v40 (F := Ideal) (a0 m c) (a1 m c) (a3 m c) from w3_agg m ρ c]
  exact relu_eq_v44 _ _ _ _ _ (w3_bias m ρ c)
theorem w4_src (c : Dev nD) : W4 m ρ c (Proc.devRef .tc main_v3) = val_main_v3 (F := Ideal) (a1 m c) := (W4_of_ne m ρ c main_v3 (by decide)).trans (w3_src m ρ c)
theorem w4_dst (c : Dev nD) : W4 m ρ c (Proc.devRef .tc main_v6) = val_main_v6 (F := Ideal) (a1 m c) := (W4_of_ne m ρ c main_v6 (by decide)).trans (w3_dst m ρ c)
theorem w4_norm (c : Dev nD) : W4 m ρ c (Proc.devRef .tc main_v26) = val_main_v26 (F := Ideal) (a1 m c) := (W4_of_ne m ρ c main_v26 (by decide)).trans (w3_norm m ρ c)
theorem w4_arg2 (c : Dev nD) : W4 m ρ c (Proc.devRef .tc main_arg2) = a2 m c := (W4_of_ne m ρ c main_arg2 (by decide)).trans (w3_arg2 m ρ c)
theorem w4_arg5 (c : Dev nD) : W4 m ρ c (Proc.devRef .tc main_arg5) = a5 m c := (W4_of_ne m ρ c main_arg5 (by decide)).trans (w3_arg5 m ρ c)
theorem w4_arg6 (c : Dev nD) : W4 m ρ c (Proc.devRef .tc main_arg6) = a6 m c := (W4_of_ne m ρ c main_arg6 (by decide)).trans (w3_arg6 m ρ c)
theorem w4_arg7 (c : Dev nD) : W4 m ρ c (Proc.devRef .tc main_arg7) = a7 m c := (W4_of_ne m ρ c main_arg7 (by decide)).trans (w3_arg7 m ρ c)
theorem w4_arg8 (c : Dev nD) : W4 m ρ c (Proc.devRef .tc main_arg8) = a8 m c := (W4_of_ne m ρ c main_arg8 (by decide)).trans (w3_arg8 m ρ c)

/-! ### After the second projection -/

theorem w5_proj (c : Dev nD) : W5 m ρ c (Proc.devRef .tc main_v43) = val_main_v45 (F := Ideal) (a0 m c) (a1 m c) (a3 m c) (a4 m c) (a5 m c) := by
  refine (W5_arr m ρ c 2).trans ((arr2 (V4 m ρ) c).trans ?_)
  rw [show V4 m ρ c main_v42 = val_main_v44 (F := Ideal) (a0 m c) (a1 m c) (a3 m c) (a4 m c) from w4_relu m ρ c,
    show V4 m ρ c main_arg5 = a5 m c from w4_arg5 m ρ c]
  exact proj_eq_v45 _ _ _ _ _
theorem w5_src (c : Dev nD) : W5 m ρ c (Proc.devRef .tc main_v3) = val_main_v3 (F := Ideal) (a1 m c) := (W5_of_ne m ρ c main_v3 (by decide)).trans (w4_src m ρ c)
theorem w5_dst (c : Dev nD) : W5 m ρ c (Proc.devRef .tc main_v6) = val_main_v6 (F := Ideal) (a1 m c) := (W5_of_ne m ρ c main_v6 (by decide)).trans (w4_dst m ρ c)
theorem w5_norm (c : Dev nD) : W5 m ρ c (Proc.devRef .tc main_v26) = val_main_v26 (F := Ideal) (a1 m c) := (W5_of_ne m ρ c main_v26 (by decide)).trans (w4_norm m ρ c)
theorem w5_arg2 (c : Dev nD) : W5 m ρ c (Proc.devRef .tc main_arg2) = a2 m c := (W5_of_ne m ρ c main_arg2 (by decide)).trans (w4_arg2 m ρ c)
theorem w5_arg6 (c : Dev nD) : W5 m ρ c (Proc.devRef .tc main_arg6) = a6 m c := (W5_of_ne m ρ c main_arg6 (by decide)).trans (w4_arg6 m ρ c)
theorem w5_arg7 (c : Dev nD) : W5 m ρ c (Proc.devRef .tc main_arg7) = a7 m c := (W5_of_ne m ρ c main_arg7 (by decide)).trans (w4_arg7 m ρ c)
theorem w5_arg8 (c : Dev nD) : W5 m ρ c (Proc.devRef .tc main_arg8) = a8 m c := (W5_of_ne m ρ c main_arg8 (by decide)).trans (w4_arg8 m ρ c)

/-! ### After the second aggregation -/

theorem w6_agg (c : Dev nD) : W6 m ρ c (Proc.devRef .tc main_v56) = val_main_v58 (F := Ideal) (a0 m c) (a1 m c) (a3 m c) (a4 m c) (a5 m c) :=
  stretch3_agg (W5 m ρ c) _ _ _ _ _ (w5_norm m ρ c) (w5_src m ρ c) (w5_dst m ρ c) (w5_proj m ρ c)
theorem w6_bias (c : Dev nD) (j : S1x64.Idx) : (W6 m ρ c (Proc.devRef .tc main_v57) : S1x64.Idx → EReal) j = a6 m c (idx_main_v59 j) :=
  (stretch3_bias (W5 m ρ c) j).trans (congrFun (w5_arg6 m ρ c) _)
theorem w6_arg2 (c : Dev nD) : W6 m ρ c (Proc.devRef .tc main_arg2) = a2 m c := (stretch3_arg2 (W5 m ρ c)).trans (w5_arg2 m ρ c)
theorem w6_arg7 (c : Dev nD) : W6 m ρ c (Proc.devRef .tc main_arg7) = a7 m c := (stretch3_arg7 (W5 m ρ c)).trans (w5_arg7 m ρ c)
theorem w6_arg8 (c : Dev nD) : W6 m ρ c (Proc.devRef .tc main_arg8) = a8 m c := (stretch3_arg8 (W5 m ρ c)).trans (w5_arg8 m ρ c)

/-! ### After the second rectifier -/

theorem w7_relu (c : Dev nD) :
    W7 m ρ c (Proc.devRef .tc main_v58) = val_main_v62 (F := Ideal) (a0 m c) (a1 m c) (a3 m c) (a4 m c) (a5 m c) (a6 m c) := by
  refine (W7_arr m ρ c 2).trans ((arr3 (V6 m ρ) c).trans ?_)
  rw [show V6 m ρ c main_v56 = val_main_v58 (F := Ideal) (a0 m c) (a1 m c) (a3 m c) (a4 m c) (a5 m c) from w6_agg m ρ c]
  exact relu_eq_v62 _ _ _ _ _ _ _ (w6_bias m ρ c)
theorem w7_arg2 (c : Dev nD) : W7 m ρ c (Proc.devRef .tc main_arg2) = a2 m c := (W7_of_ne m ρ c main_arg2 (by decide)).trans (w6_arg2 m ρ c)
theorem w7_arg7 (c : Dev nD) : W7 m ρ c (Proc.devRef .tc main_arg7) = a7 m c := (W7_of_ne m ρ c main_arg7 (by decide)).trans (w6_arg7 m ρ c)
theorem w7_arg8 (c : Dev nD) : W7 m ρ c (Proc.devRef .tc main_arg8) = a8 m c := (W7_of_ne m ρ c main_arg8 (by decide)).trans (w6_arg8 m ρ c)

/-! ### The result -/

/-- The result array after the last host stretch is the reference's result as a function of the nine arguments. -/
theorem result_eq (c : Dev nD) :
    W8 m ρ c (Proc.devRef .tc main_v74)
      = val_main_v78 (F := Ideal) (a0 m c) (a1 m c) (a2 m c) (a3 m c) (a4 m c) (a5 m c) (a6 m c) (a7 m c) (a8 m c) :=
  stretch4_out (W7 m ρ c) _ _ _ _ _ _ _ _ _ (w7_relu m ρ c) (w7_arg2 m ρ c) (w7_arg7 m ρ c) (w7_arg8 m ρ c)

end Cert.KernelIdeal.Hand

end
-- ==== Proof.lean ====
/-
  A two-layer graph-convolution network with mean pooling and a dense head: the kernel's program runs the two
  projections and the two bias-and-rectifier passes as row-tiled kernels and everything else — edge lists, degrees,
  normalisation, gather and scatter-add over the edges, pooling, the final layer — as the same host operations the
  reference applies. Over the extended reals a tile's matrix product into a zero accumulator is the reference's
  `dot_general` restricted to the tile's rows (a change of float format is the identity, and sums of extended reals do
  not depend on their order), and `max (a + b, 0)` on a tile is the reference's `maximum (add a b) 0` on those rows; the
  twenty tiles cover the rows. So after every region and every host stretch the kernel's buffers hold the reference's
  stages, and the two results are one function of the nine arguments. No law used here needs finiteness: the
  precondition is never opened. The idealization rewrote nothing, so the kernel's idealized program is its own text.
-/
import proofs.«430725_j9938554323662_3_alg».proof.Defs
import proofs.«430725_j9938554323662_3_alg».proof.Proof.Gen.Kernel
import proofs.«430725_j9938554323662_3_alg».proof.Proof.Gen.Kernel.Skeleton
import proofs.«430725_j9938554323662_3_alg».proof.Proof.Gen.Kernel.Launch
import proofs.«430725_j9938554323662_3_alg».proof.Proof.Gen.Kernel.Points
import proofs.«430725_j9938554323662_3_alg».proof.Proof.Gen.Kernel.Frame
import proofs.«430725_j9938554323662_3_alg».proof.Proof.Gen.KernelIdeal
import proofs.«430725_j9938554323662_3_alg».proof.Proof.Gen.KernelIdeal.Skeleton
import proofs.«430725_j9938554323662_3_alg».proof.Proof.Gen.KernelIdeal.Launch
import proofs.«430725_j9938554323662_3_alg».proof.Proof.Gen.KernelIdeal.Points
import proofs.«430725_j9938554323662_3_alg».proof.Proof.Gen.KernelIdeal.Frame
import proofs.«430725_j9938554323662_3_alg».proof.Proof.Gen.ReferenceIdeal
import proofs.«430725_j9938554323662_3_alg».proof.Proof.Gen.Pre_finite_inputs
import proofs.«430725_j9938554323662_3_alg».proof.Proof.Gen.ReferenceIdeal.Run
import proofs.«430725_j9938554323662_3_alg».proof.Proof.Gen.ReferenceIdeal.Read
import proofs.«430725_j9938554323662_3_alg».proof.Proof.KernelRun
import proofs.«430725_j9938554323662_3_alg».proof.Proof.KernelValue
import Idealize.ShloMosaic.Adequacy
import Idealize.ShloMosaic.Init

noncomputable section

namespace Cert.Proof

open Idealize.ShloMosaic Idealize.ShloMosaic.TcCoe Idealize.SL.Sem

/-- Both idealized programs run, and end with equal results: the kernel's result array holds the reference's result as a
    function of its arguments, and the arguments agree. -/
theorem algebraic [hKernelIdeal : Cert.KernelIdeal.Facts] [hReferenceIdeal : Cert.ReferenceIdeal.Facts]
    [hPre_finite_inputs : Cert.Pre_finite_inputs.Facts] : Cert.algebraic_KernelIdeal_ReferenceIdeal := by
  intro m ρ m' ρ' _ hagree
  refine ⟨fun c => Cert.KernelIdeal.Gen.W8 m ρ c (Proc.devRef .tc Cert.KernelIdeal.main_v74),
    Cert.KernelIdeal.Hand.run (F := Ideal) m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Gen.W8 m ρ c (Proc.devRef .tc Cert.KernelIdeal.main_v74)
  rw [Cert.ReferenceIdeal.Read.val_main_v78_eq, Cert.KernelIdeal.Hand.result_eq]
  obtain ⟨h0, h1, h2, h3, h4, h5, h6, h7, h8⟩ := hagree c
  rw [h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
